-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096 : Shape := ⟨1, ![4096]⟩
abbrev S256x1024 : Shape := ⟨2, ![256, 1024]⟩
abbrev S256 : Shape := ⟨1, ![256]⟩
abbrev S5994x256 : Shape := ⟨2, ![5994, 256]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S256 : S_.BroadcastsInDim S256 (![] : Fin 0 → Fin S256.rank)
  reducesTo_S256_S_d0 : S256.ReducesTo [0] S_
  bcast_S_S5994x256 : S_.BroadcastsInDim S5994x256 (![] : Fin 0 → Fin S5994x256.rank)
  reducesTo_S5994x256_S_d0_1 : S5994x256.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg1 : IVec S4096 32) (main_v13 : IVec S_ 1) (main_v16 : IVec S5994x256 1) : IVec S_ 1 :=
  let main_c_5 : IVec S_ 1 := constantI S_ 1 1#1
  let main_v17 : IVec S_ 1 := (fun x v => Host.reduce IntOp.andi x v reducesTo_S5994x256_S_d0_1 h_S_) main_v16 main_c_5
  let main_v18 : IVec S_ 1 := andi main_v13 main_v17
  let main_c_6 : IVec S_ 32 := constantI S_ 32 0#32
  let main_v19 : IVec S4096 32 := broadcastInDim S4096 ![] bcast_S_S4096 main_c_6
  let main_v20 : IVec S4096 1 := cmpi .sge main_arg1 main_v19
  let main_c_7 : IVec S_ 32 := constantI S_ 32 5994#32
  let main_v21 : IVec S4096 32 := broadcastInDim S4096 ![] bcast_S_S4096 main_c_7
  let main_v22 : IVec S4096 1 := cmpi .slt main_arg1 main_v21
  let main_v23 : IVec S4096 1 := andi main_v20 main_v22
  let main_c_8 : IVec S_ 1 := constantI S_ 1 1#1
  let main_v24 : IVec S_ 1 := (fun x v => Host.reduce IntOp.andi x v reducesTo_S4096_S_d0 h_S_) main_v23 main_c_8
  let main_v25 : IVec S_ 1 := andi main_v18 main_v24
  main_v25

def fn {F : FTy → Type} [FloatOps F] (main_arg0 : FVec F S4096x1024 .f32) (main_arg1 : IVec S4096 32) (main_arg2 : FVec F S256x1024 .f32) (main_arg3 : FVec F S256 .f32) (main_arg4 : FVec F S5994x256 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S256x1024 .f32 := Host.absf main_arg2
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S5994x256 .f32 := Host.absf main_arg4
  let main_cst_4 : FVec F S_ .f32 := constant S_ .f32 0x7F800000#32
  let main_v15 : FVec F S5994x256 .f32 := broadcastInDim S5994x256 ![] bcast_S_S5994x256 main_cst_4
  let main_v16 : IVec S5994x256 1 := cmpf .olt main_v14 main_v15
  fn_part1 (F := F) main_arg1 main_v13 main_v16
-- ==== Kernel.lean ====
abbrev S4096x1024 : Shape := ⟨2, ![4096, 1024]⟩
abbrev S4096 : Shape := ⟨1, ![4096]⟩
abbrev S256x1024 : Shape := ⟨2, ![256, 1024]⟩
abbrev S256 : Shape := ⟨1, ![256]⟩
abbrev S5994x256 : Shape := ⟨2, ![5994, 256]⟩
abbrev S4096x1 : Shape := ⟨2, ![4096, 1]⟩
abbrev S_ : Shape := ⟨0, ![]⟩
abbrev S6144x256 : Shape := ⟨2, ![6144, 256]⟩
abbrev S2048x256 : Shape := ⟨2, ![2048, 256]⟩
abbrev S2048 : Shape := ⟨1, ![2048]⟩
abbrev S2048x1 : Shape := ⟨2, ![2048, 1]⟩
abbrev S512x1024 : Shape := ⟨2, ![512, 1024]⟩
abbrev S512x1 : Shape := ⟨2, ![512, 1]⟩
abbrev S1024x256 : Shape := ⟨2, ![1024, 256]⟩
abbrev S512x256 : Shape := ⟨2, ![512, 256]⟩
abbrev S1x256 : Shape := ⟨2, ![1, 256]⟩
abbrev S512 : Shape := ⟨1, ![512]⟩
abbrev S256x2048 : Shape := ⟨2, ![256, 2048]⟩
abbrev S512x2048 : Shape := ⟨2, ![512, 2048]⟩

abbrev nBuf : Space → Nat
  | .hbm => 15
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096, .i32⟩
  | .hbm, ⟨2, _⟩ => ⟨S256x1024, .f32⟩
  | .hbm, ⟨3, _⟩ => ⟨S256, .f32⟩
  | .hbm, ⟨4, _⟩ => ⟨S5994x256, .f32⟩
  | .hbm, ⟨5, _⟩ => ⟨S4096x1, .i32⟩
  | .hbm, ⟨6, _⟩ => ⟨S_, .i32⟩
  | .hbm, ⟨7, _⟩ => ⟨S_, .f32⟩
  | .hbm, ⟨8, _⟩ => ⟨S6144x256, .f32⟩
  | .hbm, ⟨9, _⟩ => ⟨S6144x256, .f32⟩
  | .hbm, ⟨10, _⟩ => ⟨S4096x1, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S512x1024, .f32⟩
  | .local _ .vmem, ⟨5, _⟩ => ⟨S512x1024, .f32⟩
  | .local _ .vmem, ⟨6, _⟩ => ⟨S256x1024, .f32⟩
  | .local _ .vmem, ⟨7, _⟩ => ⟨S256, .f32⟩
  | .local _ .vmem, ⟨8, _⟩ => ⟨S6144x256, .f32⟩
  | .local _ .vmem, ⟨9, _⟩ => ⟨S512x1, .i32⟩
  | .local _ .vmem, ⟨10, _⟩ => ⟨S512x1, .i32⟩
  | .local _ .vmem, ⟨11, _⟩ => ⟨S512x1, .f32⟩
  | .local _ .vmem, ⟨12, _⟩ => ⟨S512x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg4_1 : Ref sig .tc := ⟨.vmem, 10, rfl⟩
abbrev cc1_stg5_0 : Ref sig .tc := ⟨.vmem, 11, rfl⟩
abbrev cc1_stg5_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem4_1 : DmaSem sig := 10
abbrev cc1_sem5_0 : DmaSem sig := 11
abbrev cc1_sem5_1 : DmaSem sig := 12

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S6144x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x1 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S4096_S4096x1 : S4096.ShapeCasts S4096x1
  pads_S5994x256_S6144x256_01500_000 : S5994x256.Pads (![0, 0] : Fin 2 → Nat) ![150, 0] ![0, 0] S6144x256
  h_S_ : 0 < S_.numel
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  reduces_S2048x256_S2048 : S2048x256.Reduces [1] S2048
  shapeCasts_S2048_S2048x1 : S2048.ShapeCasts S2048x1
  broadcasts_S2048x1_S2048x256 : S2048x1.Broadcasts S2048x256
  inb_S512x1024_S512x1024_0_0 : ∀ a, (![0, 0] : Fin 2 → Nat) a + S512x1024.size a ≤ S512x1024.size a
  h_S512x1024 : 0 < S512x1024.numel
  inb_S256x1024_S256x1024_0_0 : ∀ a, (![0, 0] : Fin 2 → Nat) a + S256x1024.size a ≤ S256x1024.size a
  h_S256x1024 : 0 < S256x1024.numel
  transposes_S256x1024_p1_0_S1024x256 : S256x1024.Transposes [1, 0] S1024x256
  inb_S256_S256_0 : ∀ a, (![0] : Fin 1 → Nat) a + S256.size a ≤ S256.size a
  h_S256 : 0 < S256.numel
  shapeCasts_S256_S1x256 : S256.ShapeCasts S1x256
  broadcasts_S1x256_S512x256 : S1x256.Broadcasts S512x256
  reduces_S512x256_S512 : S512x256.Reduces [1] S512
  shapeCasts_S512_S512x1 : S512.ShapeCasts S512x1
  broadcasts_S512x1_S512x256 : S512x1.Broadcasts S512x256
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S6144x256_S2048x256_0_0 : ∀ a, (![0, 0] : Fin 2 → Nat) a + S2048x256.size a ≤ S6144x256.size a
  transposes_S2048x256_p1_0_S256x2048 : S2048x256.Transposes [1, 0] S256x2048
  iota_S512x2048_d1_w32 : S512x2048.Iotas .tc 32 [1]
  broadcasts_S512x1_S512x2048 : S512x1.Broadcasts S512x2048
  reduces_S512x2048_S512 : S512x2048.Reduces [1] S512
  inb_S6144x256_S2048x256_2048_0 : ∀ a, (![2048, 0] : Fin 2 → Nat) a + S2048x256.size a ≤ S6144x256.size a
  inb_S6144x256_S2048x256_4096_0 : ∀ a, (![4096, 0] : Fin 2 → Nat) a + S2048x256.size a ≤ S6144x256.size a
  reducesTo_S4096x1_S_d0_1 : S4096x1.ReducesTo [0, 1] S_
  dot_S512x1024_S1024x256_S512x256_1_0_0_1_n_n_wf : DotDims.WF S512x1024 S1024x256 S512x256 [1] [0] [0] [1] [] []
  dot_S512x256_S256x2048_S512x2048_1_0_0_1_n_n_wf : DotDims.WF S512x256 S256x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S6144x256.size a
  hwx0_0 : ∀ i : grid0.Coords, EltTy.bits .f32 = 32 ∨ (Rect.block (s := S6144x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S6144x256.size a
  hwx0_1 : ∀ i : grid0.Coords, EltTy.bits .f32 = 32 ∨ (Rect.block (s := S6144x256) S2048x256.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x1024.size a
  hwx1_0 : ∀ i : grid1.Coords, EltTy.bits .f32 = 32 ∨ (Rect.block (s := S4096x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x1024.size a ≤ S256x1024.size a
  hwx1_1 : ∀ i : grid1.Coords, EltTy.bits .f32 = 32 ∨ (Rect.block (s := S256x1024) S256x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S6144x256.size a ≤ S6144x256.size a
  hwx1_3 : ∀ i : grid1.Coords, EltTy.bits .f32 = 32 ∨ (Rect.block (s := S6144x256) S6144x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x1.size a ≤ S4096x1.size a
  hwx1_4 : ∀ i : grid1.Coords, EltTy.bits .i32 = 32 ∨ (Rect.block (s := S4096x1) S512x1.size (cc1_transform_4 i) (hinb1_4 i)).WholeWords (EltTy.packing .i32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x1.size a ≤ S4096x1.size a
  hwx1_5 : ∀ i : grid1.Coords, EltTy.bits .f32 = 32 ∨ (Rect.block (s := S4096x1) S512x1.size (cc1_transform_5 i) (hinb1_5 i)).WholeWords (EltTy.packing .f32)

variable [Facts₀]

def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf
def dot_S512x256_S256x2048_S512x2048_1_0_0_1_n_n : DotDims S512x256 S256x2048 S512x2048 where
  lhsContracting := [1]
  rhsContracting := [0]
  lhsNonContracting := [0]
  rhsNonContracting := [1]
  lhsBatch := []
  rhsBatch := []
  wf := dot_S512x256_S256x2048_S512x2048_1_0_0_1_n_n_wf

abbrev win0_0 : Pipeline.Window sig grid0 :=
  Pipeline.Window.ofSpec (Memref.whole main_v1) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S256x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S6144x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v0) S512x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v3) S512x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4096x1024 : Shape := ⟨2, ![4096, 1024]⟩
abbrev S4096 : Shape := ⟨1, ![4096]⟩
abbrev S256x1024 : Shape := ⟨2, ![256, 1024]⟩
abbrev S256 : Shape := ⟨1, ![256]⟩
abbrev S5994x256 : Shape := ⟨2, ![5994, 256]⟩
abbrev S1024x256 : Shape := ⟨2, ![1024, 256]⟩
abbrev S4096x256 : Shape := ⟨2, ![4096, 256]⟩
abbrev S1x256 : Shape := ⟨2, ![1, 256]⟩
abbrev S_ : Shape := ⟨0, ![]⟩
abbrev S4096x1 : Shape := ⟨2, ![4096, 1]⟩
abbrev S5994 : Shape := ⟨1, ![5994]⟩
abbrev S5994x1 : Shape := ⟨2, ![5994, 1]⟩
abbrev S256x5994 : Shape := ⟨2, ![256, 5994]⟩
abbrev S4096x5994 : Shape := ⟨2, ![4096, 5994]⟩
abbrev S1x5994 : Shape := ⟨2, ![1, 5994]⟩
abbrev S4096x1x1 : Shape := ⟨3, ![4096, 1, 1]⟩
abbrev S1 : Shape := ⟨1, ![1]⟩
abbrev S1x1x1 : Shape := ⟨3, ![1, 1, 1]⟩

abbrev nBuf : Space → Nat
  | .hbm => 121
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096, .i32⟩
  | .hbm, ⟨2, _⟩ => ⟨S256x1024, .f32⟩
  | .hbm, ⟨3, _⟩ => ⟨S256, .f32⟩
  | .hbm, ⟨4, _⟩ => ⟨S5994x256, .f32⟩
  | .hbm, ⟨5, _⟩ => ⟨S1024x256, .f32⟩
  | .hbm, ⟨6, _⟩ => ⟨S4096x256, .f32⟩
  | .hbm, ⟨7, _⟩ => ⟨S1x256, .f32⟩
  | .hbm, ⟨8, _⟩ => ⟨S4096x256, .f32⟩
  | .hbm, ⟨9, _⟩ => ⟨S4096x256, .f32⟩
  | .hbm, ⟨10, _⟩ => ⟨S4096x256, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x256, .f32⟩
  | .hbm, ⟨19, _⟩ => ⟨S4096x256, .f32⟩
  | .hbm, ⟨20, _⟩ => ⟨S5994x256, .f32⟩
  | .hbm, ⟨21, _⟩ => ⟨S_, .f32⟩
  | .hbm, ⟨22, _⟩ => ⟨S5994, .f32⟩
  | .hbm, ⟨23, _⟩ => ⟨S5994x1, .f32⟩
  | .hbm, ⟨24, _⟩ => ⟨S5994x1, .f32⟩
  | .hbm, ⟨25, _⟩ => ⟨S_, .f32⟩
  | .hbm, ⟨26, _⟩ => ⟨S5994x1, .f32⟩
  | .hbm, ⟨27, _⟩ => ⟨S5994x1, .f32⟩
  | .hbm, ⟨28, _⟩ => ⟨S5994x256, .f32⟩
  | .hbm, ⟨29, _⟩ => ⟨S5994x256, .f32⟩
  | .hbm, ⟨30, _⟩ => ⟨S256x5994, .f32⟩
  | .hbm, ⟨31, _⟩ => ⟨S4096x5994, .f32⟩
  | .hbm, ⟨32, _⟩ => ⟨S4096x5994, .f32⟩
  | .hbm, ⟨33, _⟩ => ⟨S_, .f32⟩
  | .hbm, ⟨34, _⟩ => ⟨S4096x5994, .f32⟩
  | .hbm, ⟨35, _⟩ => ⟨S4096x5994, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4096x5994, .f32⟩
  | .hbm, ⟨40, _⟩ => ⟨S4096x5994, .f32⟩
  | .hbm, ⟨41, _⟩ => ⟨S_, .f32⟩
  | .hbm, ⟨42, _⟩ => ⟨S4096x5994, .f32⟩
  | .hbm, ⟨43, _⟩ => ⟨S4096x5994, .f32⟩
  | .hbm, ⟨44, _⟩ => ⟨S4096x5994, .f32⟩
  | .hbm, ⟨45, _⟩ => ⟨S_, .f32⟩
  | .hbm, ⟨46, _⟩ => ⟨S4096x5994, .f32⟩
  | .hbm, ⟨47, _⟩ => ⟨S4096x5994, .f32⟩
  | .hbm, ⟨48, _⟩ => ⟨S_, .f32⟩
  | .hbm, ⟨49, _⟩ => ⟨S4096x5994, .f32⟩
  | .hbm, ⟨50, _⟩ => ⟨S4096x5994, .f32⟩
  | .hbm, ⟨51, _⟩ => ⟨S4096x5994, .f32⟩
  | .hbm, ⟨52, _⟩ => ⟨S_, .f32⟩
  | .hbm, ⟨53, _⟩ => ⟨S4096x5994, .f32⟩
  | .hbm, ⟨54, _⟩ => ⟨S4096x5994, .f32⟩
  | .hbm, ⟨55, _⟩ => ⟨S_, .f32⟩
  | .hbm, ⟨56, _⟩ => ⟨S4096x5994, .f32⟩
  | .hbm, ⟨57, _⟩ => ⟨S4096x5994, .i1⟩
  | .hbm, ⟨58, _⟩ => ⟨S_, .f32⟩
  | .hbm, ⟨59, _⟩ => ⟨S4096x5994, .f32⟩
  | .hbm, ⟨60, _⟩ => ⟨S4096x5994, .f32⟩
  | .hbm, ⟨61, _⟩ => ⟨S4096x5994, .f32⟩
  | .hbm, ⟨62, _⟩ => ⟨S4096x1, .i32⟩
  | .hbm, ⟨63, _⟩ => ⟨S1x5994, .i32⟩
  | .hbm, ⟨64, _⟩ => ⟨S4096x5994, .i32⟩
  | .hbm, ⟨65, _⟩ => ⟨S4096x5994, .i32⟩
  | .hbm, ⟨66, _⟩ => ⟨S4096x5994, .i1⟩
  | .hbm, ⟨67, _⟩ => ⟨S4096x5994, .f32⟩
  | .hbm, ⟨68, _⟩ => ⟨S4096x5994, .f32⟩
  | .hbm, ⟨69, _⟩ => ⟨S_, .f32⟩
  | .hbm, ⟨70, _⟩ => ⟨S4096x5994, .f32⟩
  | .hbm, ⟨71, _⟩ => ⟨S4096x5994, .f32⟩
  | .hbm, ⟨72, _⟩ => ⟨S4096x5994, .f32⟩
  | .hbm, ⟨73, _⟩ => ⟨S4096x5994, .f32⟩
  | .hbm, ⟨74, _⟩ => ⟨S_, .f32⟩
  | .hbm, ⟨75, _⟩ => ⟨S4096x5994, .f32⟩
  | .hbm, ⟨76, _⟩ => ⟨S4096x5994, .f32⟩
  | .hbm, ⟨77, _⟩ => ⟨S_, .f32⟩
  | .hbm, ⟨78, _⟩ => ⟨S4096, .f32⟩
  | .hbm, ⟨79, _⟩ => ⟨S_, .f32⟩
  | .hbm, ⟨80, _⟩ => ⟨S4096, .f32⟩
  | .hbm, ⟨81, _⟩ => ⟨S4096, .f32⟩
  | .hbm, ⟨82, _⟩ => ⟨S4096x1, .f32⟩
  | .hbm, ⟨83, _⟩ => ⟨S4096x5994, .f32⟩
  | .hbm, ⟨84, _⟩ => ⟨S4096x5994, .f32⟩
  | .hbm, ⟨85, _⟩ => ⟨S4096x5994, .f32⟩
  | .hbm, ⟨86, _⟩ => ⟨S_, .f32⟩
  | .hbm, ⟨87, _⟩ => ⟨S4096, .f32⟩
  | .hbm, ⟨88, _⟩ => ⟨S4096x1, .f32⟩
  | .hbm, ⟨89, _⟩ => ⟨S4096x1, .f32⟩
  | .hbm, ⟨90, _⟩ => ⟨S4096x5994, .f32⟩
  | .hbm, ⟨91, _⟩ => ⟨S4096x5994, .f32⟩
  | .hbm, ⟨92, _⟩ => ⟨S4096x1, .i32⟩
  | .hbm, ⟨93, _⟩ => ⟨S_, .i32⟩
  | .hbm, ⟨94, _⟩ => ⟨S4096x1, .i32⟩
  | .hbm, ⟨95, _⟩ => ⟨S4096x1, .i1⟩
  | .hbm, ⟨96, _⟩ => ⟨S_, .i32⟩
  | .hbm, ⟨97, _⟩ => ⟨S4096x1, .i32⟩
  | .hbm, ⟨98, _⟩ => ⟨S4096x1, .i32⟩
  | .hbm, ⟨99, _⟩ => ⟨S4096x1, .i32⟩
  | .hbm, ⟨100, _⟩ => ⟨S4096x1x1, .i32⟩
  | .hbm, ⟨101, _⟩ => ⟨S1, .i32⟩
  | .hbm, ⟨102, _⟩ => ⟨S_, .i32⟩
  | .hbm, ⟨103, _⟩ => ⟨S4096x1x1, .i32⟩
  | .hbm, ⟨104, _⟩ => ⟨S4096x1x1, .i1⟩
  | .hbm, ⟨105, _⟩ => ⟨S1x1x1, .i32⟩
  | .hbm, ⟨106, _⟩ => ⟨S4096x1x1, .i32⟩
  | .hbm, ⟨107, _⟩ => ⟨S4096x1x1, .i1⟩
  | .hbm, ⟨108, _⟩ => ⟨S4096x1x1, .i1⟩
  | .hbm, ⟨109, _⟩ => ⟨S_, .i1⟩
  | .hbm, ⟨110, _⟩ => ⟨S4096x1, .i1⟩
  | .hbm, ⟨111, _⟩ => ⟨S4096x1, .f32⟩
  | .hbm, ⟨112, _⟩ => ⟨S_, .f32⟩
  | .hbm, ⟨113, _⟩ => ⟨S4096x1, .f32⟩
  | .hbm, ⟨114, _⟩ => ⟨S4096x1, .f32⟩
  | .hbm, ⟨115, _⟩ => ⟨S4096, .f32⟩
  | .hbm, ⟨116, _⟩ => ⟨S4096, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_cst_5 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_8 : Ref sig .tc := ⟨.hbm, 52, rfl⟩
abbrev main_v33 : Ref sig .tc := ⟨.hbm, 53, rfl⟩
abbrev main_v34 : Ref sig .tc := ⟨.hbm, 54, rfl⟩
abbrev main_cst_9 : Ref sig .tc := ⟨.hbm, 55, rfl⟩
abbrev main_v35 : Ref sig .tc := ⟨.hbm, 56, rfl⟩
abbrev main_v36 : Ref sig .tc := ⟨.hbm, 57, rfl⟩
abbrev main_cst_10 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_v40 : Ref sig .tc := ⟨.hbm, 67, rfl⟩
abbrev main_v41 : Ref sig .tc := ⟨.hbm, 68, rfl⟩
abbrev main_cst_11 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_12 : Ref sig .tc := ⟨.hbm, 74, rfl⟩
abbrev main_v46 : Ref sig .tc := ⟨.hbm, 75, rfl⟩
abbrev main_v47 : Ref sig .tc := ⟨.hbm, 76, rfl⟩
abbrev main_call3_cst : Ref sig .tc := ⟨.hbm, 77, rfl⟩
abbrev main_call3_v0 : Ref sig .tc := ⟨.hbm, 78, rfl⟩
abbrev main_call3_cst_0 : Ref sig .tc := ⟨.hbm, 79, rfl⟩
abbrev main_call3_v1 : Ref sig .tc := ⟨.hbm, 80, rfl⟩
abbrev main_call3_v2 : Ref sig .tc := ⟨.hbm, 81, rfl⟩
abbrev main_call3_v3 : Ref sig .tc := ⟨.hbm, 82, rfl⟩
abbrev main_call3_v4 : Ref sig .tc := ⟨.hbm, 83, rfl⟩
abbrev main_call3_v5 : Ref sig .tc := ⟨.hbm, 84, rfl⟩
abbrev main_call3_v6 : Ref sig .tc := ⟨.hbm, 85, rfl⟩
abbrev main_call3_cst_1 : Ref sig .tc := ⟨.hbm, 86, rfl⟩
abbrev main_call3_v7 : Ref sig .tc := ⟨.hbm, 87, rfl⟩
abbrev main_call3_v8 : Ref sig .tc := ⟨.hbm, 88, rfl⟩
abbrev main_call3_v9 : Ref sig .tc := ⟨.hbm, 89, rfl⟩
abbrev main_call3_v10 : Ref sig .tc := ⟨.hbm, 90, rfl⟩
abbrev main_v48 : Ref sig .tc := ⟨.hbm, 91, rfl⟩
abbrev main_v49 : Ref sig .tc := ⟨.hbm, 92, rfl⟩
abbrev main_call4_c : Ref sig .tc := ⟨.hbm, 93, rfl⟩
abbrev main_call4_v0 : Ref sig .tc := ⟨.hbm, 94, rfl⟩
abbrev main_call4_v1 : Ref sig .tc := ⟨.hbm, 95, rfl⟩
abbrev main_call4_c_0 : Ref sig .tc := ⟨.hbm, 96, rfl⟩
abbrev main_call4_v2 : Ref sig .tc := ⟨.hbm, 97, rfl⟩
abbrev main_call4_v3 : Ref sig .tc := ⟨.hbm, 98, rfl⟩
abbrev main_call4_v4 : Ref sig .tc := ⟨.hbm, 99, rfl⟩
abbrev main_call4_v5 : Ref sig .tc := ⟨.hbm, 100, rfl⟩
abbrev main_call4_c_1 : Ref sig .tc := ⟨.hbm, 101, rfl⟩
abbrev main_call4_c_2 : Ref sig .tc := ⟨.hbm, 102, rfl⟩
abbrev main_call4_v6 : Ref sig .tc := ⟨.hbm, 103, rfl⟩
abbrev main_call4_v7 : Ref sig .tc := ⟨.hbm, 104, rfl⟩
abbrev main_call4_v8 : Ref sig .tc := ⟨.hbm, 105, rfl⟩
abbrev main_call4_v9 : Ref sig .tc := ⟨.hbm, 106, rfl⟩
abbrev main_call4_v10 : Ref sig .tc := ⟨.hbm, 107, rfl⟩
abbrev main_call4_v11 : Ref sig .tc := ⟨.hbm, 108, rfl⟩
abbrev main_call4_c_3 : Ref sig .tc := ⟨.hbm, 109, rfl⟩
abbrev main_call4_v12 : Ref sig .tc := ⟨.hbm, 110, rfl⟩
abbrev main_call4_v13 : Ref sig .tc := ⟨.hbm, 111, rfl⟩
abbrev main_call4_cst : Ref sig .tc := ⟨.hbm, 112, rfl⟩
abbrev main_call4_v14 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_cst_13 : Ref sig .tc := ⟨.hbm, 117, rfl⟩
abbrev main_v53 : Ref sig .tc := ⟨.hbm, 118, rfl⟩
abbrev main_cst_14 : Ref sig .tc := ⟨.hbm, 119, rfl⟩
abbrev main_v54 : Ref sig .tc := ⟨.hbm, 120, rfl⟩

abbrev nD : Nat := 1
abbrev τ : Topo := Topo.v7x

variable {F : FTy → Type} [FloatOps F]

class Facts₀ : Prop where
  transposes_S256x1024_S1024x256_1_0 : S256x1024.Transposes [1, 0] S1024x256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  reducesTo_S5994x256_S5994_d1 : S5994x256.ReducesTo [1] S5994
  bcast_S5994_S5994x1_0 : S5994.BroadcastsInDim S5994x1 (![0] : Fin 1 → Fin S5994x1.rank)
  bcast_S_S5994x1 : S_.BroadcastsInDim S5994x1 (![] : Fin 0 → Fin S5994x1.rank)
  bcast_S5994x1_S5994x256_0_1 : S5994x1.BroadcastsInDim S5994x256 (![0, 1] : Fin 2 → Fin S5994x256.rank)
  transposes_S5994x256_S256x5994_1_0 : S5994x256.Transposes [1, 0] S256x5994
  bcast_S_S4096x5994 : S_.BroadcastsInDim S4096x5994 (![] : Fin 0 → Fin S4096x5994.rank)
  bcast_S4096x1_S4096x5994_0_1 : S4096x1.BroadcastsInDim S4096x5994 (![0, 1] : Fin 2 → Fin S4096x5994.rank)
  bcast_S1x5994_S4096x5994_0_1 : S1x5994.BroadcastsInDim S4096x5994 (![0, 1] : Fin 2 → Fin S4096x5994.rank)
  reducesTo_S4096x5994_S4096_d1 : S4096x5994.ReducesTo [1] S4096
  bcast_S_S4096 : S_.BroadcastsInDim S4096 (![] : Fin 0 → Fin S4096.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  shapeCasts_S4096x1_S4096 : S4096x1.ShapeCasts S4096
  reducesTo_S4096_S_d0 : S4096.ReducesTo [0] S_
  dot_S4096x1024_S1024x256_S4096x256_1_0_0_1_n_n_wf : DotDims.WF S4096x1024 S1024x256 S4096x256 [1] [0] [0] [1] [] []
  dot_S4096x256_S256x5994_S4096x5994_1_0_0_1_n_n_wf : DotDims.WF S4096x256 S256x5994 S4096x5994 [1] [0] [0] [1] [] []
  gather_S4096x5994_S4096x1x1_S4096x1_n_1_0_0_1_2_11_wf : GatherDims.WF S4096x5994 S4096x1x1 S4096x1 [] [1] [0] [1] [0] 2 ![1, 1]

variable [Facts₀]

def dot_S4096x1024_S1024x256_S4096x256_1_0_0_1_n_n : DotDims S4096x1024 S1024x256 S4096x256 where
  lhsContracting := [1]
  rhsContracting := [0]
  lhsNonContracting := [0]
  rhsNonContracting := [1]
  lhsBatch := []
  rhsBatch := []
  wf := dot_S4096x1024_S1024x256_S4096x256_1_0_0_1_n_n_wf
def dot_S4096x256_S256x5994_S4096x5994_1_0_0_1_n_n : DotDims S4096x256 S256x5994 S4096x5994 where
  lhsContracting := [1]
  rhsContracting := [0]
  lhsNonContracting := [0]
  rhsNonContracting := [1]
  lhsBatch := []
  rhsBatch := []
  wf := dot_S4096x256_S256x5994_S4096x5994_1_0_0_1_n_n_wf
def gather_S4096x5994_S4096x1x1_S4096x1_n_1_0_0_1_2_11 : GatherDims S4096x5994 S4096x1x1 S4096x1 where
  offsetDims := []
  collapsedSliceDims := [1]
  operandBatchingDims := [0]
  startIndicesBatchingDims := [0]
  startIndexMap := [1]
  indexVectorDim := 2
  sliceSizes := ![1, 1]
  wf := gather_S4096x5994_S4096x1x1_S4096x1_n_1_0_0_1_2_11_wf

class Facts : Prop extends Facts₀ where

variable [Facts]
-- ==== Proof.Spec.lean ====
/-
  The mathematics of an additive-angular-margin softmax loss, with no program in sight.

  One sample has a feature row x (1024 entries); a linear layer gives its embedding e = x · W_fcᵀ + b (256 entries); the
  embedding and each of the 5994 class prototypes (rows of W, 256 entries) are divided by max(‖·‖₂, ε); the cosine of
  the sample against class c is the inner product of the two normalized rows. At the sample's own class ℓ the cosine t is
  replaced by the margin value φ(t) = t·cos m − √(clip(1 − t², 0, 1))·sin m when t − cos(π − m) > 0 and t − mm otherwise;
  every entry is scaled by s = 30, and the loss of the sample is −log softmax at ℓ. The batch result is the mean loss.

  Two arrangements of that loss are stated here, over the extended reals, entry by entry:
  * `rowNllK` walks the class axis in three chunks of 2048 columns over a prototype table padded to 6144 normalized rows;
    a column past 5994 contributes the logit −∞ (so e^{−∞ − s} = 0); it keeps the sum Σ e^{logit − s} and the label's
    logit, and returns −(logit_ℓ − (s + log Σ));
  * `rowNllR` forms all 5994 logits with a one-hot blend, shifts them by a number μ (the row maximum in the
    program that computes it), and returns −((logit_ℓ − μ) − log Σ e^{logit − μ}).
  For real (finite) data the two agree whatever real μ is: Σ e^{a − s} = e^{μ − s} · Σ e^{a − μ}.
-/
import Idealize.ShloMosaic.PureOps.Ideal
import Idealize.ShloMosaic.Lib.ValueIdx

noncomputable section

namespace Cert.Aam

open Idealize.ShloMosaic

/-! ## The literals both programs carry, each read as the exact value of its binary word -/

/-- ε = f32(1e-12), the floor under a row norm. -/
def eps : EReal := Ideal.ofBits .f32 0x2B8CBCCC#32
/-- 0 and 1. -/
def zero : EReal := Ideal.ofBits .f32 0x00000000#32
def one : EReal := Ideal.ofBits .f32 0x3F800000#32
/-- cos m, sin m, cos(π − m) and sin(π − m)·m at m = 0.2, as the f32 words the programs print. -/
def cosM : EReal := Ideal.ofBits .f32 0x3F7AE5A5#32
def sinM : EReal := Ideal.ofBits .f32 0x3E4B6FF9#32
def thr : EReal := Ideal.ofBits .f32 0xBF7AE5A5#32
def mm : EReal := Ideal.ofBits .f32 0x3D22BFFA#32
/-- the scale s = 30 and the batch size 4096. -/
def scale : EReal := Ideal.ofBits .f32 0x41F00000#32
def count : EReal := Ideal.ofBits .f32 0x45800000#32

/-- An extended real that is a real number. -/
def IsReal (x : EReal) : Prop := ∃ r : ℝ, x = (r : EReal)

/-! ## Rows -/

/-- The floored L2 norm of a row: max(√Σ v², ε). -/
def den {n : Nat} (v : Fin n → EReal) : EReal := max (Ideal.sqrt (∑ q, v q * v q)) eps

/-- A row divided by its floored norm. -/
def unit {n : Nat} (v : Fin n → EReal) (q : Fin n) : EReal := Ideal.div (v q) (den v)

/-- One sample's embedding: x · W_fcᵀ + b. -/
def emb (x : Fin 1024 → EReal) (wfc : Fin 256 → Fin 1024 → EReal) (bfc : Fin 256 → EReal) (p : Fin 256) : EReal :=
  (∑ k, x k * wfc p k) + bfc p

/-- The inner product of two rows of 256. -/
def dot (u v : Fin 256 → EReal) : EReal := ∑ p, u p * v p

/-- The margin applied to a cosine t. -/
def margin (t : EReal) : EReal :=
  if zero < t - thr then t * cosM - Ideal.sqrt (min one (max zero (one - t * t))) * sinM else t - mm

/-- Row r of the prototype table padded with zero rows from 5994 to 6144. -/
def padRow (w : Fin 5994 → Fin 256 → EReal) (r : Fin 6144) (q : Fin 256) : EReal :=
  if h : r.val < 5994 then w ⟨r.val, h⟩ q else 0

/-! ## The chunked arrangement, over a table `wn` of 6144 rows that are already normalized -/

section Chunked
variable (u : Fin 256 → EReal) (wn : Fin 6144 → Fin 256 → EReal) (ℓ : Fin 5994)

/-- Column j of chunk i of the padded class axis. -/
def col (i : Fin 3) (j : Fin 2048) : Fin 6144 := ⟨2048 * i.val + j.val, by omega⟩

/-- The cosine at column j of chunk i. -/
def cosK (i : Fin 3) (j : Fin 2048) : EReal := dot u (wn (col i j))

/-- The chunk's label cosine: the sum over the chunk that keeps the label's column only (0 when the label is elsewhere). -/
def cosLabK (i : Fin 3) : EReal := ∑ j, if (col i j).val = ℓ.val then cosK u wn i j else 0

/-- The chunk's logits: the margin value at the label's column, the cosine elsewhere, scaled; −∞ past column 5994. -/
def logitK (i : Fin 3) (j : Fin 2048) : EReal :=
  if (col i j).val < 5994 then (if (col i j).val = ℓ.val then margin (cosLabK u wn ℓ i) else cosK u wn i j) * scale else ⊥

/-- The chunk's share of Σ e^{logit − s}. -/
def expSumK (i : Fin 3) : EReal := ∑ j, Ideal.exp (logitK u wn ℓ i j - scale)

/-- The chunk's share of the label's logit. -/
def selK (i : Fin 3) : EReal := ∑ j, if (col i j).val = ℓ.val then logitK u wn ℓ i j else 0

/-- The sample's loss, chunked: −(logit_ℓ − (s + log Σ e^{logit − s})). -/
def rowNllK : EReal :=
  -((selK u wn ℓ 0 + selK u wn ℓ 1 + selK u wn ℓ 2)
      - (scale + Ideal.log (expSumK u wn ℓ 0 + expSumK u wn ℓ 1 + expSumK u wn ℓ 2)))

end Chunked

/-! ## The whole-row arrangement, over the raw prototype table `w` of 5994 rows -/

section Whole
variable (u : Fin 256 → EReal) (w : Fin 5994 → Fin 256 → EReal) (ℓ : Fin 5994)

/-- The cosine against class c. -/
def cosR (c : Fin 5994) : EReal := dot u (unit (w c))

/-- The one-hot indicator of the label, as a number. -/
def hot (c : Fin 5994) : EReal := if c.val = ℓ.val then one else zero

/-- The logits by the one-hot blend: (hot · φ(cos) + (1 − hot) · cos) · s. -/
def logitR (c : Fin 5994) : EReal :=
  (hot ℓ c * margin (cosR u w c) + (one - hot ℓ c) * cosR u w c) * scale

/-- The sample's loss at a shift μ: −((logit_ℓ − μ) − log Σ e^{logit − μ}). -/
def rowNllR (μ : EReal) : EReal :=
  -((logitR u w ℓ ℓ - μ) - Ideal.log (∑ c, Ideal.exp (logitR u w ℓ c - μ)))

end Whole

/-- The batch mean of the samples' losses. -/
def meanNll (f : Fin 4096 → EReal) : EReal := Ideal.div (∑ b, f b) count

end Cert.Aam

end
-- ==== Proof.MathReal.lean ====
/-
  Real numbers stay real: every quantity of the loss, from real features, weights, bias and prototypes, is a real number
  (not ±∞) — sums and products of reals, the floored norm max(√Σv², ε) ≥ ε > 0 and the quotient by it, the margin value,
  the scaled logits. Also the literals' values as far as they are used: ε is a positive real, the others are reals,
  the zero and one words are 0 and 1.
-/
import proofs.«400184_j68195490726508_2_alg».proof.Proof.Spec

noncomputable section

namespace Cert.Aam

open Idealize.ShloMosaic

/-- A binary32 word whose exponent field is not all ones denotes a real number. -/
theorem ieee_real {w : Nat} (b : BitVec w) (h : (b.extractLsb' 23 8).toNat ≠ 2 ^ 8 - 1) :
    IsReal (Ideal.ieee 8 23 b) := by
  unfold Ideal.ieee
  simp only
  rw [if_neg h]
  split_ifs <;> exact ⟨_, rfl⟩

theorem zero_eq : zero = 0 := by
  unfold zero
  simp [Ideal.ofBits, Ideal.ieee]

theorem one_eq : one = 1 := by
  unfold one
  simp [Ideal.ofBits, Ideal.ieee, -EReal.coe_mul]; norm_num

/-- ε is a positive real number. -/
theorem eps_pos : ∃ e : ℝ, 0 < e ∧ eps = (e : EReal) := by
  refine ⟨((2 ^ 23 + 834764 : Nat) : ℝ) * (2 : ℝ) ^ (-63 : Int), by positivity, ?_⟩
  unfold eps
  simp [Ideal.ofBits, Ideal.ieee, -EReal.coe_mul]

theorem cosM_real : IsReal cosM := by
  show IsReal (Ideal.ieee 8 23 (0x3F7AE5A5#32 : BitVec 32))
  refine ieee_real _ ?_
  decide
theorem sinM_real : IsReal sinM := by
  show IsReal (Ideal.ieee 8 23 (0x3E4B6FF9#32 : BitVec 32))
  refine ieee_real _ ?_
  decide
theorem thr_real : IsReal thr := by
  show IsReal (Ideal.ieee 8 23 (0xBF7AE5A5#32 : BitVec 32))
  refine ieee_real _ ?_
  decide
theorem mm_real : IsReal mm := by
  show IsReal (Ideal.ieee 8 23 (0x3D22BFFA#32 : BitVec 32))
  refine ieee_real _ ?_
  decide
theorem scale_real : IsReal scale := by
  show IsReal (Ideal.ieee 8 23 (0x41F00000#32 : BitVec 32))
  refine ieee_real _ ?_
  decide

theorem IsReal.add {x y : EReal} (hx : IsReal x) (hy : IsReal y) : IsReal (x + y) := by
  obtain ⟨a, rfl⟩ := hx
  obtain ⟨b, rfl⟩ := hy
  exact ⟨a + b, (EReal.coe_add a b).symm⟩
theorem IsReal.sub {x y : EReal} (hx : IsReal x) (hy : IsReal y) : IsReal (x - y) := by
  obtain ⟨a, rfl⟩ := hx
  obtain ⟨b, rfl⟩ := hy
  exact ⟨a - b, (EReal.coe_sub a b).symm⟩
theorem IsReal.mul {x y : EReal} (hx : IsReal x) (hy : IsReal y) : IsReal (x * y) := by
  obtain ⟨a, rfl⟩ := hx
  obtain ⟨b, rfl⟩ := hy
  exact ⟨a * b, (EReal.coe_mul a b).symm⟩
theorem IsReal.sum {ι : Type} (s : Finset ι) (f : ι → EReal) (hf : ∀ i ∈ s, IsReal (f i)) : IsReal (∑ i ∈ s, f i) := by
  classical
  induction s using Finset.induction_on with
  | empty => exact ⟨0, by simp⟩
  | insert a s ha ih =>
    rw [Finset.sum_insert ha]
    exact IsReal.add (hf a (Finset.mem_insert_self a s)) (ih (fun i hi => hf i (Finset.mem_insert_of_mem hi)))

/-- The larger of two reals, read in the extended reals. -/
theorem coe_max' (a b : ℝ) : max (a : EReal) (b : EReal) = ((max a b : ℝ) : EReal) :=
  (EReal.coe_strictMono.monotone.map_max).symm

/-- The smaller of two reals, read in the extended reals. -/
theorem coe_min' (a b : ℝ) : min (a : EReal) (b : EReal) = ((min a b : ℝ) : EReal) :=
  (EReal.coe_strictMono.monotone.map_min).symm

/-- The floored norm of a real row is a positive real. -/
theorem den_pos {n : Nat} (v : Fin n → EReal) (hv : ∀ q, IsReal (v q)) : ∃ d : ℝ, 0 < d ∧ den v = (d : EReal) := by
  obtain ⟨e, he, hE⟩ := eps_pos
  obtain ⟨S, hS⟩ := IsReal.sum Finset.univ (fun q => v q * v q) (fun q _ => (hv q).mul (hv q))
  unfold den
  rw [hS, hE, Ideal.sqrt_coe]
  split_ifs with h
  · exact ⟨e, he, max_eq_right bot_le⟩
  · exact ⟨max (Real.sqrt S) e, lt_max_of_lt_right he, coe_max' _ _⟩

theorem unit_real {n : Nat} (v : Fin n → EReal) (hv : ∀ q, IsReal (v q)) (q : Fin n) : IsReal (unit v q) := by
  obtain ⟨d, hd, hD⟩ := den_pos v hv
  unfold unit
  rw [hD, Ideal.div_coe hd.ne']
  exact (hv q).mul ⟨_, rfl⟩

theorem emb_real (x : Fin 1024 → EReal) (wfc : Fin 256 → Fin 1024 → EReal) (bfc : Fin 256 → EReal)
    (hx : ∀ k, IsReal (x k)) (hwfc : ∀ p k, IsReal (wfc p k)) (hbfc : ∀ p, IsReal (bfc p)) (p : Fin 256) :
    IsReal (emb x wfc bfc p) := by
  unfold emb
  exact (IsReal.sum _ _ (fun k _ => (hx k).mul (hwfc p k))).add (hbfc p)

theorem dot_real (u v : Fin 256 → EReal) (hu : ∀ p, IsReal (u p)) (hv : ∀ p, IsReal (v p)) : IsReal (dot u v) := by
  unfold dot
  exact IsReal.sum _ _ (fun p _ => (hu p).mul (hv p))

/-- The square root of a real clipped to [0, 1] is real. -/
theorem sqrt_clip_real (x : EReal) (hx : IsReal x) : IsReal (Ideal.sqrt (min one (max zero x))) := by
  obtain ⟨a, rfl⟩ := hx
  rw [one_eq, zero_eq, ← EReal.coe_zero, ← EReal.coe_one, coe_max', coe_min', Ideal.sqrt_coe,
    if_neg (not_lt.mpr (le_min zero_le_one (le_max_left 0 a)))]
  exact ⟨_, rfl⟩

theorem margin_real (t : EReal) (ht : IsReal t) : IsReal (margin t) := by
  have h1 : IsReal one := ⟨1, by rw [one_eq]; rfl⟩
  unfold margin
  split_ifs
  · exact (ht.mul cosM_real).sub ((sqrt_clip_real _ (h1.sub (ht.mul ht))).mul sinM_real)
  · exact ht.sub mm_real

/-- The cosine of a real embedding against a real prototype row is real. -/
theorem cosR_real (u : Fin 256 → EReal) (w : Fin 5994 → Fin 256 → EReal) (hu : ∀ p, IsReal (u p))
    (hw : ∀ c q, IsReal (w c q)) (c : Fin 5994) : IsReal (cosR u w c) := by
  unfold cosR
  exact dot_real u _ hu (fun q => unit_real (w c) (hw c) q)

/-- A real cosine row gives real logits. -/
theorem logitR_real (u : Fin 256 → EReal) (w : Fin 5994 → Fin 256 → EReal) (ℓ : Fin 5994)
    (hcos : ∀ c, IsReal (cosR u w c)) (c : Fin 5994) : IsReal (logitR u w ℓ c) := by
  have h1 : IsReal one := ⟨1, by rw [one_eq]; rfl⟩
  have h0 : IsReal zero := ⟨0, by rw [zero_eq]; rfl⟩
  have hh : IsReal (hot ℓ c) := by
    unfold hot
    split_ifs
    · exact h1
    · exact h0
  unfold logitR
  exact ((hh.mul (margin_real _ (hcos c))).add ((h1.sub hh).mul (hcos c))).mul scale_real

end Cert.Aam

end
-- ==== Proof.MathLse.lean ====
/-
  The two arrangements of the loss agree on real data. With real cosines t_c, the chunked arrangement's three partial sums
  add up to Σ_{c<5994} e^{a_c − s} (a column past 5994 has logit −∞ and adds e^{−∞} = 0; a chunk's label cosine is the
  label's own cosine because the other terms of that sum are 0), its kept logit is a_ℓ, and the one-hot blend
  1·φ + 0·t, 0·φ + 1·t gives the same logits a_c. Then for any real shift μ:
  Σ e^{a_c − s} = e^{μ − s} · Σ e^{a_c − μ}, so s + log Σ e^{a_c − s} = μ + log Σ e^{a_c − μ} (the sums are positive).
-/
import proofs.«400184_j68195490726508_2_alg».proof.Proof.Spec
import proofs.«400184_j68195490726508_2_alg».proof.Proof.MathReal

noncomputable section

namespace Cert.Aam

open Idealize.ShloMosaic

/-! ## Small facts -/

/-- A finite sum of real numbers, read in the extended reals, is the sum of the readings. -/
theorem lse_coe_finsum {ι : Type} (s : Finset ι) (f : ι → ℝ) :
    ((∑ i ∈ s, f i : ℝ) : EReal) = ∑ i ∈ s, (f i : EReal) := by
  classical
  refine Finset.induction_on s ?_ ?_
  · simp
  · intro a t ha ih
    rw [Finset.sum_insert ha, Finset.sum_insert ha, EReal.coe_add, ih]

/-- A row of the padded table below 5994 is the row of the table. -/
theorem lse_padRow_lt (w : Fin 5994 → Fin 256 → EReal) (r : Fin 6144) (h : r.val < 5994) :
    padRow w r = w ⟨r.val, h⟩ := by
  funext q
  unfold padRow
  rw [dif_pos h]

/-- The logit of class c without the blend: the margin value at the label, the cosine elsewhere, scaled. -/
def lse_lg (u : Fin 256 → EReal) (w : Fin 5994 → Fin 256 → EReal) (ℓ : Fin 5994) (c : Fin 5994) : EReal :=
  (if c.val = ℓ.val then margin (cosR u w c) else cosR u w c) * scale

theorem lse_lg_real (u : Fin 256 → EReal) (w : Fin 5994 → Fin 256 → EReal) (ℓ : Fin 5994)
    (hcos : ∀ c, IsReal (cosR u w c)) (c : Fin 5994) : IsReal (lse_lg u w ℓ c) := by
  unfold lse_lg
  by_cases h : c.val = ℓ.val
  · rw [if_pos h]; exact (margin_real _ (hcos c)).mul scale_real
  · rw [if_neg h]; exact (hcos c).mul scale_real

/-- The one-hot blend 1·φ + (1 − 1)·t = φ, 0·φ + (1 − 0)·t = t. -/
theorem lse_logitR_eq_lg (u : Fin 256 → EReal) (w : Fin 5994 → Fin 256 → EReal) (ℓ : Fin 5994) (c : Fin 5994) :
    logitR u w ℓ c = lse_lg u w ℓ c := by
  unfold logitR lse_lg hot
  have h11 : (1 : EReal) - 1 = 0 := by
    rw [← EReal.coe_one, ← EReal.coe_sub, sub_self, EReal.coe_zero]
  by_cases h : c.val = ℓ.val
  · rw [if_pos h, if_pos h, one_eq, h11, one_mul, zero_mul, add_zero]
  · rw [if_neg h, if_neg h, one_eq, zero_eq, zero_mul, sub_zero, one_mul, zero_add]

/-! ## The chunked arrangement, column by column -/

/-- A column below 5994 carries the cosine against that class. -/
theorem lse_cosK_eq (u : Fin 256 → EReal) (w : Fin 5994 → Fin 256 → EReal) (i : Fin 3) (j : Fin 2048)
    (h : (col i j).val < 5994) :
    cosK u (fun r q => unit (padRow w r) q) i j = cosR u w ⟨(col i j).val, h⟩ := by
  unfold cosK cosR
  show dot u (unit (padRow w (col i j))) = dot u (unit (w ⟨(col i j).val, h⟩))
  rw [lse_padRow_lt w (col i j) h]

/-- In the label's chunk the kept cosine is the label's: every other term of the sum is 0. -/
theorem lse_cosLabK_eq (u : Fin 256 → EReal) (w : Fin 5994 → Fin 256 → EReal) (ℓ : Fin 5994) (i : Fin 3) (j : Fin 2048)
    (h : (col i j).val = ℓ.val) :
    cosLabK u (fun r q => unit (padRow w r) q) ℓ i = cosR u w ℓ := by
  have hlt : (col i j).val < 5994 := by rw [h]; exact ℓ.isLt
  unfold cosLabK
  rw [Finset.sum_eq_single j]
  · rw [if_pos h, lse_cosK_eq u w i j hlt]
    congr 1
    exact Fin.ext h
  · intro j' _ hj'
    rw [if_neg]
    intro h'
    apply hj'
    have e : (col i j').val = (col i j).val := h'.trans h.symm
    simp only [col] at e
    exact Fin.ext (by omega)
  · intro hj
    exact absurd (Finset.mem_univ j) hj

/-- The chunk's logit at a column below 5994. -/
theorem lse_logitK_eq (u : Fin 256 → EReal) (w : Fin 5994 → Fin 256 → EReal) (ℓ : Fin 5994) (i : Fin 3) (j : Fin 2048)
    (h : (col i j).val < 5994) :
    logitK u (fun r q => unit (padRow w r) q) ℓ i j = lse_lg u w ℓ ⟨(col i j).val, h⟩ := by
  unfold logitK lse_lg
  rw [if_pos h]
  by_cases hl : (col i j).val = ℓ.val
  · have e : (⟨(col i j).val, h⟩ : Fin 5994) = ℓ := Fin.ext hl
    rw [if_pos hl, lse_cosLabK_eq u w ℓ i j hl, e, if_pos rfl]
  · rw [if_neg hl, lse_cosK_eq u w i j h]
    show _ = (if (col i j).val = ℓ.val then _ else _) * scale
    rw [if_neg hl]

/-- The chunk's logit at a column past 5994. -/
theorem lse_logitK_bot (u : Fin 256 → EReal) (w : Fin 5994 → Fin 256 → EReal) (ℓ : Fin 5994) (i : Fin 3) (j : Fin 2048)
    (h : ¬ (col i j).val < 5994) :
    logitK u (fun r q => unit (padRow w r) q) ℓ i j = ⊥ := by
  unfold logitK
  rw [if_neg h]

/-! ## The three chunks, as one sum over the columns -/

/-- Three runs of 2048 consecutive columns make the columns below 6144. -/
theorem lse_sum_chunks (g : ℕ → EReal) :
    (∑ j : Fin 2048, g (2048 * 0 + j.val)) + (∑ j : Fin 2048, g (2048 * 1 + j.val))
      + (∑ j : Fin 2048, g (2048 * 2 + j.val)) = ∑ c ∈ Finset.range 6144, g c := by
  rw [Fin.sum_univ_eq_sum_range (fun j => g (2048 * 0 + j)) 2048,
    Fin.sum_univ_eq_sum_range (fun j => g (2048 * 1 + j)) 2048,
    Fin.sum_univ_eq_sum_range (fun j => g (2048 * 2 + j)) 2048,
    show (6144 : ℕ) = 2048 + 2048 + 2048 from rfl, Finset.sum_range_add, Finset.sum_range_add]
  simp only [Nat.mul_zero, Nat.zero_add, Nat.mul_one]

/-- The summand of Σ e^{logit − s} at column c of the padded axis. -/
def lse_eTerm (u : Fin 256 → EReal) (w : Fin 5994 → Fin 256 → EReal) (ℓ : Fin 5994) (c : ℕ) : EReal :=
  if h : c < 5994 then Ideal.exp (lse_lg u w ℓ ⟨c, h⟩ - scale) else 0

/-- The summand of the kept logit at column c. -/
def lse_sTerm (u : Fin 256 → EReal) (w : Fin 5994 → Fin 256 → EReal) (ℓ : Fin 5994) (c : ℕ) : EReal :=
  if c = ℓ.val then lse_lg u w ℓ ℓ else 0

theorem lse_expSumK_eq (u : Fin 256 → EReal) (w : Fin 5994 → Fin 256 → EReal) (ℓ : Fin 5994) (i : Fin 3) :
    expSumK u (fun r q => unit (padRow w r) q) ℓ i = ∑ j : Fin 2048, lse_eTerm u w ℓ (2048 * i.val + j.val) := by
  unfold expSumK
  refine Finset.sum_congr rfl ?_
  intro j _
  show _ = lse_eTerm u w ℓ (col i j).val
  unfold lse_eTerm
  by_cases h : (col i j).val < 5994
  · rw [dif_pos h, lse_logitK_eq u w ℓ i j h]
  · rw [dif_neg h, lse_logitK_bot u w ℓ i j h, EReal.bot_sub, Ideal.exp_bot]

theorem lse_selK_eq (u : Fin 256 → EReal) (w : Fin 5994 → Fin 256 → EReal) (ℓ : Fin 5994) (i : Fin 3) :
    selK u (fun r q => unit (padRow w r) q) ℓ i = ∑ j : Fin 2048, lse_sTerm u w ℓ (2048 * i.val + j.val) := by
  unfold selK
  refine Finset.sum_congr rfl ?_
  intro j _
  show _ = lse_sTerm u w ℓ (col i j).val
  unfold lse_sTerm
  by_cases hl : (col i j).val = ℓ.val
  · have hlt : (col i j).val < 5994 := by rw [hl]; exact ℓ.isLt
    have e : (⟨(col i j).val, hlt⟩ : Fin 5994) = ℓ := Fin.ext hl
    rw [if_pos hl, if_pos hl, lse_logitK_eq u w ℓ i j hlt, e]
  · rw [if_neg hl, if_neg hl]

/-- The three chunks' exponential sums are the sum over the 5994 classes. -/
theorem lse_expSum_total (u : Fin 256 → EReal) (w : Fin 5994 → Fin 256 → EReal) (ℓ : Fin 5994) :
    expSumK u (fun r q => unit (padRow w r) q) ℓ 0 + expSumK u (fun r q => unit (padRow w r) q) ℓ 1
      + expSumK u (fun r q => unit (padRow w r) q) ℓ 2 = ∑ c : Fin 5994, Ideal.exp (lse_lg u w ℓ c - scale) := by
  rw [lse_expSumK_eq, lse_expSumK_eq, lse_expSumK_eq]
  refine (lse_sum_chunks (lse_eTerm u w ℓ)).trans ?_
  rw [show (6144 : ℕ) = 5994 + 150 from rfl, Finset.sum_range_add]
  have hz : ∑ x ∈ Finset.range 150, lse_eTerm u w ℓ (5994 + x) = 0 := by
    refine Finset.sum_eq_zero ?_
    intro x _
    unfold lse_eTerm
    rw [dif_neg (by omega)]
  rw [hz, add_zero, ← Fin.sum_univ_eq_sum_range (lse_eTerm u w ℓ) 5994]
  refine Finset.sum_congr rfl ?_
  intro c _
  unfold lse_eTerm
  rw [dif_pos c.isLt]

/-- The three chunks' kept logits add up to the label's logit. -/
theorem lse_sel_total (u : Fin 256 → EReal) (w : Fin 5994 → Fin 256 → EReal) (ℓ : Fin 5994) :
    selK u (fun r q => unit (padRow w r) q) ℓ 0 + selK u (fun r q => unit (padRow w r) q) ℓ 1
      + selK u (fun r q => unit (padRow w r) q) ℓ 2 = lse_lg u w ℓ ℓ := by
  rw [lse_selK_eq, lse_selK_eq, lse_selK_eq]
  refine (lse_sum_chunks (lse_sTerm u w ℓ)).trans ?_
  unfold lse_sTerm
  rw [Finset.sum_ite_eq', if_pos]
  have := ℓ.isLt
  exact Finset.mem_range.mpr (by omega)

/-! ## The shift -/

/-- Σ e^{a − s} = e^{μ − s} · Σ e^{a − μ}, so s + log Σ e^{a − s} = μ + log Σ e^{a − μ}. -/
theorem lse_shift_real (a : Fin 5994 → ℝ) (ℓ : Fin 5994) (s m : ℝ) :
    -(a ℓ - (s + Real.log (∑ c, Real.exp (a c - s)))) = -((a ℓ - m) - Real.log (∑ c, Real.exp (a c - m))) := by
  have hpos : 0 < ∑ c, Real.exp (a c - m) :=
    Finset.sum_pos (fun c _ => Real.exp_pos _) ⟨ℓ, Finset.mem_univ ℓ⟩
  have hS : ∑ c, Real.exp (a c - s) = Real.exp (m - s) * ∑ c, Real.exp (a c - m) := by
    rw [Finset.mul_sum]
    refine Finset.sum_congr rfl ?_
    intro c _
    rw [← Real.exp_add]
    congr 1
    ring
  rw [hS, Real.log_mul (Real.exp_pos _).ne' hpos.ne', Real.log_exp]
  ring

/-- The chunked loss over the padded, normalized table equals the whole-row loss at any real shift, when the cosines are real. -/
theorem rowNll_eq (u : Fin 256 → EReal) (w : Fin 5994 → Fin 256 → EReal) (ℓ : Fin 5994)
    (hcos : ∀ c, IsReal (cosR u w c)) (μ : EReal) (hμ : IsReal μ) :
    rowNllK u (fun r q => unit (padRow w r) q) ℓ = rowNllR u w ℓ μ := by
  obtain ⟨s, hs⟩ := scale_real
  obtain ⟨m, hm⟩ := hμ
  choose a ha using lse_lg_real u w ℓ hcos
  have hpos1 : 0 < ∑ c, Real.exp (a c - s) :=
    Finset.sum_pos (fun c _ => Real.exp_pos _) ⟨ℓ, Finset.mem_univ ℓ⟩
  have hpos2 : 0 < ∑ c, Real.exp (a c - m) :=
    Finset.sum_pos (fun c _ => Real.exp_pos _) ⟨ℓ, Finset.mem_univ ℓ⟩
  have hE : ∑ c : Fin 5994, Ideal.exp (lse_lg u w ℓ c - scale) = ((∑ c, Real.exp (a c - s) : ℝ) : EReal) := by
    rw [lse_coe_finsum]
    refine Finset.sum_congr rfl ?_
    intro c _
    rw [ha c, hs, ← EReal.coe_sub, Ideal.exp_coe]
  have hR : ∑ c : Fin 5994, Ideal.exp (logitR u w ℓ c - μ) = ((∑ c, Real.exp (a c - m) : ℝ) : EReal) := by
    rw [lse_coe_finsum]
    refine Finset.sum_congr rfl ?_
    intro c _
    rw [lse_logitR_eq_lg, ha c, hm, ← EReal.coe_sub, Ideal.exp_coe]
  unfold rowNllK rowNllR
  rw [lse_sel_total, lse_expSum_total, hE, hR, lse_logitR_eq_lg, ha ℓ, Ideal.log_coe, Ideal.log_coe,
    if_neg (not_le.mpr hpos1), if_neg (not_le.mpr hpos2), hs, hm]
  rw [← EReal.coe_add, ← EReal.coe_sub, ← EReal.coe_sub, ← EReal.coe_sub, ← EReal.coe_neg, ← EReal.coe_neg]
  exact congrArg _ (lse_shift_real a ℓ s m)

end Cert.Aam

end
-- ==== Proof.PreDecode.lean ====
/-
  What the precondition says of the inputs: every entry of the four float arrays is a real number (|x| < +∞ on the
  extended reals), and every label, read as a signed 32-bit word, lies in 0 … 5993, so it is the word of a class number.
-/
import proofs.«400184_j68195490726508_2_alg».proof.Pre_finite_inputs
import proofs.«400184_j68195490726508_2_alg».proof.Proof.Spec
import Idealize.ShloMosaic.Lib.ValueIdx
import Idealize.ShloMosaic.Lib.ReduceAll
import Idealize.ShloMosaic.Lib.StableHlo.Predicate

noncomputable section

namespace Cert.PreDecode

open Cert.Pre_finite_inputs Idealize.ShloMosaic Idealize.ShloMosaic.ValueIdx

/-- The rank-0 shape has one index. -/
theorem subsingleton_S_ : Subsingleton S_.Idx := ⟨fun a b => funext fun d => d.elim0⟩

/-- The word 0x7F800000 denotes +∞. -/
theorem inf_word : Ideal.ofBits .f32 0x7F800000#32 = (⊤ : EReal) := by
  simp [Ideal.ofBits, Ideal.ieee]

/-- An extended real whose absolute value max(x, −x) is below +∞ is a real number: neither −∞ nor +∞ passes. -/
theorem isReal_of_abs_lt (x : EReal) (h : max x (-x) < (⊤ : EReal)) : Aam.IsReal x := by
  induction x using EReal.rec with
  | bot => simp at h
  | coe r => exact ⟨r, rfl⟩
  | top => simp at h

/-- The element fact: when the ordered comparison |x| < (the value of the word 0x7F800000) answers 1, x is a real number. -/
theorem isReal_of_cmp (x : EReal)
    (h : FloatOps.cmpf (F := Ideal) (φ := .f32) .olt (FloatOps.hostAbsf x) (FloatOps.ofBits .f32 0x7F800000#32) = 1#1) :
    Aam.IsReal x := by
  refine isReal_of_abs_lt x ?_
  have h' : BitVec.ofBool (decide (max x (-x) < Ideal.ofBits .f32 0x7F800000#32)) = 1#1 := h
  rw [inf_word] at h'
  exact of_decide_eq_true ((StableHlo.Predicate.ofBool_eq_one_iff _).1 h')

/-- A 32-bit word that is at least 0 and below 5994, both signed, is the word of a number below 5994: a word whose signed
    value is non-negative has that value as its unsigned value. -/
theorem label_of_cmp (w : BitVec 32) (h0 : IntOp.cmpi .sge w 0#32 = 1#1) (h1 : IntOp.cmpi .slt w 5994#32 = 1#1) :
    ∃ ℓ : Fin 5994, w = BitVec.ofNat 32 ℓ.val := by
  have g0 : (0#32 : BitVec 32).sle w = true := (StableHlo.Predicate.ofBool_eq_one_iff _).1 h0
  have g1 : w.slt 5994#32 = true := (StableHlo.Predicate.ofBool_eq_one_iff _).1 h1
  have hz : (0#32 : BitVec 32).toInt = 0 := by decide
  have hn : (5994#32 : BitVec 32).toInt = 5994 := by decide
  simp only [BitVec.sle, BitVec.slt, decide_eq_true_eq, hz, hn] at g0 g1
  have hlt := w.isLt
  have hw : w.toNat < 5994 := by
    rw [BitVec.toInt_eq_toNat_cond] at g0 g1
    split at g0 <;> omega
  refine ⟨⟨w.toNat, hw⟩, BitVec.eq_of_toNat_eq ?_⟩
  rw [BitVec.toNat_ofNat]
  exact (Nat.mod_eq_of_lt hlt).symm

theorem of_pre [Cert.Pre_finite_inputs.Facts] (a0 : FVec Ideal S4096x1024 .f32) (a1 : IVec S4096 32)
    (a2 : FVec Ideal S256x1024 .f32) (a3 : FVec Ideal S256 .f32) (a4 : FVec Ideal S5994x256 .f32)
    (h : Cert.Pre_finite_inputs.fn (F := Ideal) a0 a1 a2 a3 a4 = fun _ => 1#1) :
    (∀ i, Aam.IsReal (a0 i)) ∧ (∀ i, Aam.IsReal (a2 i)) ∧ (∀ i, Aam.IsReal (a3 i)) ∧ (∀ i, Aam.IsReal (a4 i))
      ∧ ∀ b : Fin 4096, ∃ ℓ : Fin 5994, a1 (ix1 b) = BitVec.ofNat 32 ℓ.val := by
  haveI := subsingleton_S_
  have e := congrFun h ix0
  dsimp only [Cert.Pre_finite_inputs.fn, Cert.Pre_finite_inputs.fn_part1] at e
  -- the result is the conjunction of five all-reductions, one per input
  obtain ⟨e0234, eL⟩ := IntOp.andi_eq_one.1 e
  obtain ⟨e023, e4⟩ := IntOp.andi_eq_one.1 e0234
  obtain ⟨e02, e3⟩ := IntOp.andi_eq_one.1 e023
  obtain ⟨e0, e2⟩ := IntOp.andi_eq_one.1 e02
  refine ⟨fun i => ?_, fun i => ?_, fun i => ?_, fun i => ?_, fun b => ?_⟩
  -- an all-reduction that is 1 had a 1 at every entry; at an entry of a float array the 1 says |x| < +∞
  · exact isReal_of_cmp (a0 i) (Host.reduce_andi_all _ _ _ _ ix0 e0 i)
  · exact isReal_of_cmp (a2 i) (Host.reduce_andi_all _ _ _ _ ix0 e2 i)
  · exact isReal_of_cmp (a3 i) (Host.reduce_andi_all _ _ _ _ ix0 e3 i)
  · exact isReal_of_cmp (a4 i) (Host.reduce_andi_all _ _ _ _ ix0 e4 i)
  -- at a label the 1 says 0 ≤ label and label < 5994, signed
  · obtain ⟨h0, h1⟩ := IntOp.andi_eq_one.1 (Host.reduce_andi_all _ _ _ _ ix0 eL (ix1 b))
    exact label_of_cmp (a1 (ix1 b)) h0 h1

end Cert.PreDecode

end
-- ==== Proof.KernelEmb.lean ====
/-
  Two pieces of the loss kernel's body, read entry by entry over the extended reals.
  * The normalized embedding: the product of the sample block with the transposed layer weights plus the bias row,
    each row then divided by its floored L2 norm — entry (r, p) is `Aam.unit (Aam.emb x_r W_fc b) p`.
  * A cosine tile: the product of the normalized embeddings with one transposed chunk of 2048 prototype rows — entry
    (r, j) is the inner product of embedding row r with prototype row j of the chunk.
-/
import proofs.«400184_j68195490726508_2_alg».proof.Proof.Gen.KernelIdeal.Frame
import proofs.«400184_j68195490726508_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.EmbValue

open Cert.KernelIdeal Cert.KernelIdeal.Gen Idealize.ShloMosaic Idealize.ShloMosaic.ValueIdx

/-! ## Two column forms of layout operations

A vector of `a` entries viewed as a column `[a, 1]`, and a column `[a, 1]` spread over `b` lanes. -/

/-- An `[a]` array cast to `[a, 1]` reads, at `(i, u)`, the operand at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, row `p`'s one entry. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The embedding's product

The product contracts axis 1 of the sample block with axis 0 of the transposed weights. At output index `i` and
contraction index `q` the left operand is read at (i 0, q) and the right operand at (q, i 1): one lemma per axis. -/

theorem lhs_emb_0 (i : S512x256.Idx) (q : dot_S512x1024_S1024x256_S512x256_1_0_0_1_n_n.contr.Idx) :
    (dot_S512x1024_S1024x256_S512x256_1_0_0_1_n_n.lhsIdx i q 0).val = (i 0).val := by
  unfold DotDims.lhsIdx
  rw [dif_neg (show ¬(0 : Fin S512x1024.rank) ∈ dot_S512x1024_S1024x256_S512x256_1_0_0_1_n_n.lhsBatch by decide), dif_pos (show (0 : Fin S512x1024.rank) ∈ dot_S512x1024_S1024x256_S512x256_1_0_0_1_n_n.lhsNonContracting by decide)]
  rfl
theorem lhs_emb_1 (i : S512x256.Idx) (q : dot_S512x1024_S1024x256_S512x256_1_0_0_1_n_n.contr.Idx) :
    (dot_S512x1024_S1024x256_S512x256_1_0_0_1_n_n.lhsIdx i q 1).val = (q ⟨0, by decide⟩).val :=
  dot_S512x1024_S1024x256_S512x256_1_0_0_1_n_n.lhsIdx_val_of_single rfl i q
theorem rhs_emb_0 (i : S512x256.Idx) (q : dot_S512x1024_S1024x256_S512x256_1_0_0_1_n_n.contr.Idx) :
    (dot_S512x1024_S1024x256_S512x256_1_0_0_1_n_n.rhsIdx i q 0).val = (q ⟨0, by decide⟩).val :=
  dot_S512x1024_S1024x256_S512x256_1_0_0_1_n_n.rhsIdx_val_of_single rfl i q
theorem rhs_emb_1 (i : S512x256.Idx) (q : dot_S512x1024_S1024x256_S512x256_1_0_0_1_n_n.contr.Idx) :
    (dot_S512x1024_S1024x256_S512x256_1_0_0_1_n_n.rhsIdx i q 1).val = (i 1).val := by
  unfold DotDims.rhsIdx
  rw [dif_neg (show ¬(1 : Fin S1024x256.rank) ∈ dot_S512x1024_S1024x256_S512x256_1_0_0_1_n_n.rhsBatch by decide), dif_pos (show (1 : Fin S1024x256.rank) ∈ dot_S512x1024_S1024x256_S512x256_1_0_0_1_n_n.rhsNonContracting by decide)]
  rfl

/-- The block of embeddings before normalization: the samples times the transposed weights, plus the bias row. -/
def embBlock (v0 : FVec Ideal S512x1024 .f32) (v1 : FVec Ideal S256x1024 .f32) (v4 : FVec Ideal S256 .f32) : FVec Ideal S512x256 .f32 :=
  addf (matmul dot_S512x1024_S1024x256_S512x256_1_0_0_1_n_n (some .fp32) v0
      (transpose S1024x256 [1, 0] v1 transposes_S256x1024_p1_0_S1024x256) (constant S512x256 .f32 0x00000000#32))
    (broadcastTo S512x256 (shapeCast S1x256 v4 shapeCasts_S256_S1x256) broadcasts_S1x256_S512x256)

/-- Entry (r, p) of that block is sample r's embedding at p. -/
theorem embBlock_apply (v0 : FVec Ideal S512x1024 .f32) (v1 : FVec Ideal S256x1024 .f32) (v4 : FVec Ideal S256 .f32)
    (r : Fin 512) (p : Fin 256) :
    embBlock v0 v1 v4 (ix2 r p)
      = Aam.emb (fun k => v0 (ix2 r k)) (fun q k => v1 (ix2 q k)) (fun q => v4 (ix1 q)) p := by
  unfold embBlock Aam.emb
  rw [addf_apply]
  refine congrArg₂ (· + ·) ?_ ?_
  · refine (Ideal.matmul_constant_zero_apply dot_S512x1024_S1024x256_S512x256_1_0_0_1_n_n (some .fp32) v0
      (transpose S1024x256 [1, 0] v1 transposes_S256x1024_p1_0_S1024x256) (ix2 r p)).trans ?_
    rw [← Equiv.sum_comp (contrEquiv1 dot_S512x1024_S1024x256_S512x256_1_0_0_1_n_n 1024 rfl rfl).symm]
    refine Finset.sum_congr rfl fun k _ => ?_
    have hk := contrEquiv1_symm_val dot_S512x1024_S1024x256_S512x256_1_0_0_1_n_n 1024 rfl rfl k
    have el : dot_S512x1024_S1024x256_S512x256_1_0_0_1_n_n.lhsIdx (ix2 r p) ((contrEquiv1 dot_S512x1024_S1024x256_S512x256_1_0_0_1_n_n 1024 rfl rfl).symm k) = ix2 r k := funext fun a => Fin.ext (by
      match a with
      | ⟨0, _⟩ => exact lhs_emb_0 _ _
      | ⟨1, _⟩ => exact (lhs_emb_1 _ _).trans hk)
    have er : dot_S512x1024_S1024x256_S512x256_1_0_0_1_n_n.rhsIdx (ix2 r p) ((contrEquiv1 dot_S512x1024_S1024x256_S512x256_1_0_0_1_n_n 1024 rfl rfl).symm k) = ix2 k p := funext fun a => Fin.ext (by
      match a with
      | ⟨0, _⟩ => exact (rhs_emb_0 _ _).trans hk
      | ⟨1, _⟩ => exact rhs_emb_1 _ _)
    rw [el, er]
    exact congrArg (v0 (ix2 r k) * ·) (transpose_ix2_apply v1 transposes_S256x1024_p1_0_S1024x256 k p)
  · refine (broadcastTo_1b_ab_apply _ broadcasts_S1x256_S512x256 r p).trans ?_
    exact shapeCast_a_1a_apply v4 shapeCasts_S256_S1x256 0 p

/-! ## Rows divided by their floored norms -/

/-- A block of 512 rows of 256, each divided by max(√(sum of its squares), ε), as the kernel spells it: square, lane sum,
    column view, square root, floor, spread back over the lanes, divide. -/
def normBlock (E : FVec Ideal S512x256 .f32) : FVec Ideal S512x256 .f32 :=
  divf E (broadcastTo S512x256
    (maximumf
      (sqrt (shapeCast S512x1 (multiReduction .add [1] S512 (mulf E E) 0x00000000#32 reduces_S512x256_S512 (.inl rfl) rfl)
        shapeCasts_S512_S512x1))
      (broadcast S512x1 (Scalar.ofBits .f32 0x2B8CBCCC#32)))
    broadcasts_S512x1_S512x256)

/-- Entry (r, p) of the normalized block, when row r of the block is the row `e`. -/
theorem normBlock_apply (E : FVec Ideal S512x256 .f32) (r : Fin 512) (e : Fin 256 → EReal)
    (hE : ∀ q : Fin 256, E (ix2 r q) = e q) (p : Fin 256) :
    normBlock E (ix2 r p) = Aam.unit e p := by
  unfold normBlock Aam.unit Aam.den
  rw [divf_apply]
  refine congrArg₂ Ideal.div (hE p) ?_
  refine (broadcastTo_a1_ab_apply _ broadcasts_S512x1_S512x256 r p).trans ?_
  rw [maximumf_apply, broadcast_apply]
  refine congrArg₂ max (congrArg Ideal.sqrt ?_) rfl
  refine (shapeCast_a_a1_apply _ shapeCasts_S512_S512x1 r 0).trans ?_
  refine (Ideal.multiReduction_add_single (mulf E E) 0x00000000#32 reduces_S512x256_S512 (.inl rfl) rfl (ix1 r)).trans ?_
  show ∑ q : Fin 256, mulf E E (reduces_S512x256_S512.lift (ix1 r) q) = ∑ q : Fin 256, e q * e q
  refine Finset.sum_congr rfl fun q _ => ?_
  have hl : reduces_S512x256_S512.lift (ix1 r) q = ix2 r q := funext fun a => Fin.ext (by
    match a with
    | ⟨0, _⟩ => rfl
    | ⟨1, _⟩ => rfl)
  rw [hl]
  exact congrArg₂ (· * ·) (hE q) (hE q)

/-- Entry (r, p) of the normalized embedding block. -/
theorem pay2_apply (v0 : Vec Ideal S512x1024 .f32) (v1 : Vec Ideal S256x1024 .f32) (v4 : Vec Ideal S256 .f32)
    (r : Fin 512) (p : Fin 256) :
    k1_pay2 (F := Ideal) v0 v1 v4 (ix2 r p)
      = Aam.unit (Aam.emb (fun k => v0 (ix2 r k)) (fun q k => v1 (ix2 q k)) (fun q => v4 (ix1 q))) p := by
  have hpay : k1_pay2 (F := Ideal) v0 v1 v4 = normBlock (embBlock v0 v1 v4) := rfl
  rw [hpay]
  exact normBlock_apply (embBlock v0 v1 v4) r _ (fun q => embBlock_apply v0 v1 v4 r q) p

/-! ## The cosine tile's product

The product contracts axis 1 of the embeddings with axis 0 of the transposed chunk. At output index `i` and
contraction index `q` the left operand is read at (i 0, q) and the right operand at (q, i 1): one lemma per axis. -/

theorem lhs_cos_0 (i : S512x2048.Idx) (q : dot_S512x256_S256x2048_S512x2048_1_0_0_1_n_n.contr.Idx) :
    (dot_S512x256_S256x2048_S512x2048_1_0_0_1_n_n.lhsIdx i q 0).val = (i 0).val := by
  unfold DotDims.lhsIdx
  rw [dif_neg (show ¬(0 : Fin S512x256.rank) ∈ dot_S512x256_S256x2048_S512x2048_1_0_0_1_n_n.lhsBatch by decide), dif_pos (show (0 : Fin S512x256.rank) ∈ dot_S512x256_S256x2048_S512x2048_1_0_0_1_n_n.lhsNonContracting by decide)]
  rfl
theorem lhs_cos_1 (i : S512x2048.Idx) (q : dot_S512x256_S256x2048_S512x2048_1_0_0_1_n_n.contr.Idx) :
    (dot_S512x256_S256x2048_S512x2048_1_0_0_1_n_n.lhsIdx i q 1).val = (q ⟨0, by decide⟩).val :=
  dot_S512x256_S256x2048_S512x2048_1_0_0_1_n_n.lhsIdx_val_of_single rfl i q
theorem rhs_cos_0 (i : S512x2048.Idx) (q : dot_S512x256_S256x2048_S512x2048_1_0_0_1_n_n.contr.Idx) :
    (dot_S512x256_S256x2048_S512x2048_1_0_0_1_n_n.rhsIdx i q 0).val = (q ⟨0, by decide⟩).val :=
  dot_S512x256_S256x2048_S512x2048_1_0_0_1_n_n.rhsIdx_val_of_single rfl i q
theorem rhs_cos_1 (i : S512x2048.Idx) (q : dot_S512x256_S256x2048_S512x2048_1_0_0_1_n_n.contr.Idx) :
    (dot_S512x256_S256x2048_S512x2048_1_0_0_1_n_n.rhsIdx i q 1).val = (i 1).val := by
  unfold DotDims.rhsIdx
  rw [dif_neg (show ¬(1 : Fin S256x2048.rank) ∈ dot_S512x256_S256x2048_S512x2048_1_0_0_1_n_n.rhsBatch by decide), dif_pos (show (1 : Fin S256x2048.rank) ∈ dot_S512x256_S256x2048_S512x2048_1_0_0_1_n_n.rhsNonContracting by decide)]
  rfl

/-- Entry (r, j) of a cosine tile: embedding row r against row j of the loaded chunk of prototypes. -/
theorem cosTile_apply (u : FVec Ideal S512x256 .f32) (wch : FVec Ideal S2048x256 .f32) (r : Fin 512) (j : Fin 2048) :
    (matmul (φ₁ := .f32) (φ₂ := .f32) dot_S512x256_S256x2048_S512x2048_1_0_0_1_n_n (some .fp32) u
        (transpose S256x2048 [1, 0] (shapeCast S2048x256 wch shapeCasts_S2048x256_S2048x256) transposes_S2048x256_p1_0_S256x2048)
        (constant S512x2048 .f32 0x00000000#32) : FVec Ideal S512x2048 .f32) (ix2 r j)
      = ∑ p : Fin 256, u (ix2 r p) * wch (ix2 j p) := by
  rw [shapeCast_self]
  refine (Ideal.matmul_constant_zero_apply dot_S512x256_S256x2048_S512x2048_1_0_0_1_n_n (some .fp32) u
    (transpose S256x2048 [1, 0] wch transposes_S2048x256_p1_0_S256x2048) (ix2 r j)).trans ?_
  rw [← Equiv.sum_comp (contrEquiv1 dot_S512x256_S256x2048_S512x2048_1_0_0_1_n_n 256 rfl rfl).symm]
  refine Finset.sum_congr rfl fun k _ => ?_
  have hk := contrEquiv1_symm_val dot_S512x256_S256x2048_S512x2048_1_0_0_1_n_n 256 rfl rfl k
  have el : dot_S512x256_S256x2048_S512x2048_1_0_0_1_n_n.lhsIdx (ix2 r j) ((contrEquiv1 dot_S512x256_S256x2048_S512x2048_1_0_0_1_n_n 256 rfl rfl).symm k) = ix2 r k := funext fun a => Fin.ext (by
    match a with
    | ⟨0, _⟩ => exact lhs_cos_0 _ _
    | ⟨1, _⟩ => exact (lhs_cos_1 _ _).trans hk)
  have er : dot_S512x256_S256x2048_S512x2048_1_0_0_1_n_n.rhsIdx (ix2 r j) ((contrEquiv1 dot_S512x256_S256x2048_S512x2048_1_0_0_1_n_n 256 rfl rfl).symm k) = ix2 k j := funext fun a => Fin.ext (by
    match a with
    | ⟨0, _⟩ => exact (rhs_cos_0 _ _).trans hk
    | ⟨1, _⟩ => exact rhs_cos_1 _ _)
  rw [el, er]
  exact congrArg (u (ix2 r k) * ·) (transpose_ix2_apply wch transposes_S2048x256_p1_0_S256x2048 k j)

end Cert.KernelIdeal.EmbValue

end
-- ==== Proof.KernelRow.lean ====
/-
  What the loss kernel's body stores for one sample: entry (r, 0) of its output block is the chunked loss
  `Aam.rowNllK` of the sample's normalized embedding, the resident table of normalized prototypes and the sample's label.
-/
import proofs.«400184_j68195490726508_2_alg».proof.Proof.Gen.KernelIdeal.Frame
import proofs.«400184_j68195490726508_2_alg».proof.Proof.Spec
import Idealize.ShloMosaic.Lib.ValueIdx
import Idealize.ShloMosaic.Lib.Pipeline.Value
import Idealize.ShloMosaic.PureOps.Ideal.Laws
import Idealize.ShloMosaic.PureOps.IdealRules
import Idealize.ShloMosaic.Lib.StableHlo.Predicate
import proofs.«400184_j68195490726508_2_alg».proof.Proof.KernelEmb

noncomputable section

namespace Cert.KernelIdeal.RowValue

open Cert.KernelIdeal Cert.KernelIdeal.Gen Idealize.ShloMosaic Idealize.ShloMosaic.ValueIdx

/-! ## Words: column numbers below 6144 compare as numbers -/

/-- A column number below 6144 is signed-below the word 5994 exactly when it is below 5994. -/
theorem slt_word (n : Nat) (hn : n < 6144) : IntOp.cmpi .slt (BitVec.ofNat 32 n) 5994#32 = 1#1 ↔ n < 5994 := by
  have e : n % 2 ^ 32 = n := Nat.mod_eq_of_lt (by omega)
  have h := StableHlo.Predicate.slt_iff_toNat (a := BitVec.ofNat 32 n) (b := 5994#32)
    (by rw [BitVec.toNat_ofNat, e]; omega) (by decide)
  rw [h, BitVec.toNat_ofNat, e]
  exact Iff.rfl

/-- Two numbers below 6144 are equal as 32-bit words exactly when they are equal. -/
theorem eq_word (n l : Nat) (hn : n < 6144) (hl : l < 5994) :
    IntOp.cmpi .eq (BitVec.ofNat 32 n) (BitVec.ofNat 32 l) = 1#1 ↔ n = l := by
  rw [StableHlo.Predicate.cmpi_eq_iff]
  constructor
  · intro h
    have h' := congrArg BitVec.toNat h
    rw [BitVec.toNat_ofNat, BitVec.toNat_ofNat, Nat.mod_eq_of_lt (by omega), Nat.mod_eq_of_lt (by omega)] at h'
    exact h'
  · rintro rfl; rfl

/-- A select on a bit that is one exactly when `P` holds is the `if` on `P`. -/
theorem select_iff {α : Type} (c : BitVec 1) (P : Prop) [Decidable P] (h : c = 1#1 ↔ P) (a b : α) :
    Scalar.select c a b = if P then a else b := by
  unfold Scalar.select
  by_cases hp : P
  · rw [if_pos hp]; exact if_pos (h.mpr hp)
  · rw [if_neg hp]; exact if_neg (fun hc => hp (h.mp hc))

/-- A select on the comparison "x > z" of two extended reals is the `if` on z < x. -/
theorem select_ogt (x z A B : EReal) : Scalar.select (Ideal.cmp .ogt x z) A B = if z < x then A else B := by
  refine select_iff _ _ ?_ A B
  unfold Ideal.cmp
  exact (StableHlo.Predicate.ofBool_eq_one_iff _).trans decide_eq_true_iff

/-! ## Layout: a row's lane sum kept as a column; a column laid along the lanes -/

/-- The lane sum of a [512, 2048] tile kept as a [512, 1] column: entry (r, 0) is the sum over row r. -/
theorem rowSum_apply (X : FVec Ideal S512x2048 .f32) (r : Fin 512) :
    shapeCast S512x1 (multiReduction (F := Ideal) .add [1] S512 X 0x00000000#32 reduces_S512x2048_S512 (.inl rfl) rfl)
        shapeCasts_S512_S512x1 (ix2 r (0 : Fin 1))
      = ∑ j : Fin 2048, X (ix2 r j) := by
  refine (shapeCast_apply _ shapeCasts_S512_S512x1 (ix2 r (0 : Fin 1)) (ix1 r)
    (by rw [Shape.rowMajor_val_one, Shape.rowMajor_val_two]; show r.val = r.val * 1 + 0; omega)).trans ?_
  refine (Ideal.multiReduction_add_single X _ reduces_S512x2048_S512 _ _ (ix1 r)).trans ?_
  refine Finset.sum_congr rfl fun j _ => ?_
  exact congrArg X (funext fun a => Fin.ext (by match a with | ⟨0, _⟩ => rfl | ⟨1, _⟩ => rfl))

/-- A [512, 1] column laid along 2048 lanes reads, at (r, j), the column's entry (r, 0). -/
theorem bcol_apply {α : Type} (x : S512x1.Idx → α) (r : Fin 512) (j : Fin 2048) :
    broadcastTo S512x2048 x broadcasts_S512x1_S512x2048 (ix2 r j) = x (ix2 r (0 : Fin 1)) :=
  broadcastTo_apply x broadcasts_S512x1_S512x2048 (ix2 r j) (ix2 r (0 : Fin 1))
    (fun a => by match a with | ⟨0, _⟩ => rfl | ⟨1, _⟩ => rfl)

/-! ## One chunk's logits, read at an entry -/

/-- The margin on a column of label cosines, read at an entry: `Aam.margin` of the entry. -/
theorem marginCol_apply (T : FVec Ideal S512x1 .f32) (i : S512x1.Idx) :
    (select (cmpf .ogt (subf T (broadcast S512x1 (Scalar.ofBits .f32 0xBF7AE5A5#32))) (broadcast S512x1 (Scalar.ofBits .f32 0x00000000#32)))
        (subf (mulf T (broadcast S512x1 (Scalar.ofBits .f32 0x3F7AE5A5#32)))
          (mulf (sqrt (minimumf (broadcast S512x1 (Scalar.ofBits .f32 0x3F800000#32))
              (maximumf (broadcast S512x1 (Scalar.ofBits .f32 0x00000000#32))
                (subf (broadcast S512x1 (Scalar.ofBits .f32 0x3F800000#32)) (mulf T T)))))
            (broadcast S512x1 (Scalar.ofBits .f32 0x3E4B6FF9#32))))
        (subf T (broadcast S512x1 (Scalar.ofBits .f32 0x3D22BFFA#32))) : FVec Ideal S512x1 .f32) i
      = Aam.margin (T i) := by
  unfold Aam.margin
  exact select_ogt _ _ _ _

/-- The named mask fill is −∞ at the extended reals. -/
theorem neg_big : Named.named (F := Ideal) κ "neg_big" (φ := .f32) 0xFF333332#32 = (⊥ : EReal) :=
  IdealRules.named_const.ideal_named_scalar _ _ _ _ rfl

/-- The logits tile of one chunk at (r, j), from the chunk's cosine tile `C`, its column numbers `colv`, the bound
    `bound` and the label column `lab`: past the bound −∞; at the label's column the margin of the row's label
    cosine (the row sum that keeps the label's column), elsewhere the cosine; scaled. -/
theorem pay19_apply (lab : IVec S512x1 32) (C : FVec Ideal S512x2048 .f32) (colv bound : IVec S512x2048 32)
    (r : Fin 512) (j : Fin 2048) :
    k1_pay19 (F := Ideal) lab C colv bound (ix2 r j)
      = Scalar.select (IntOp.cmpi .slt (colv (ix2 r j)) (bound (ix2 r j)))
          (Scalar.select (IntOp.cmpi .eq (colv (ix2 r j)) (lab (ix2 r (0 : Fin 1))))
              (Aam.margin (∑ j' : Fin 2048,
                Scalar.select (IntOp.cmpi .eq (colv (ix2 r j')) (lab (ix2 r (0 : Fin 1)))) (C (ix2 r j')) Aam.zero))
              (C (ix2 r j)) * Aam.scale)
          ⊥ := by
  have hsum : (∑ j' : Fin 2048, (select (cmpi .eq colv (broadcastTo S512x2048 lab broadcasts_S512x1_S512x2048)) C
        (broadcast S512x2048 (Scalar.ofBits .f32 0x00000000#32)) : FVec Ideal S512x2048 .f32) (ix2 r j'))
      = ∑ j' : Fin 2048, Scalar.select (IntOp.cmpi .eq (colv (ix2 r j')) (lab (ix2 r (0 : Fin 1)))) (C (ix2 r j')) Aam.zero :=
    Finset.sum_congr rfl fun j' _ => by
      show Scalar.select (IntOp.cmpi .eq (colv (ix2 r j')) (broadcastTo S512x2048 lab broadcasts_S512x1_S512x2048 (ix2 r j')))
        (C (ix2 r j')) Aam.zero = _
      rw [bcol_apply]
  unfold k1_pay19 k1_pay18
  dsimp only
  show Scalar.select (IntOp.cmpi .slt (colv (ix2 r j)) (bound (ix2 r j)))
        (Scalar.select (IntOp.cmpi .eq (colv (ix2 r j)) (broadcastTo S512x2048 lab broadcasts_S512x1_S512x2048 (ix2 r j)))
          (broadcastTo S512x2048 (shapeCast S512x1 _ shapeCasts_S512x1_S512x1) broadcasts_S512x1_S512x2048 (ix2 r j))
          (C (ix2 r j)) * Aam.scale)
        (Named.named (F := Ideal) κ "neg_big" (φ := .f32) 0xFF333332#32) = _
  rw [neg_big, bcol_apply, bcol_apply, shapeCast_self, marginCol_apply, rowSum_apply, hsum]

/-- A chunk's share of Σ e^{logit − s}, as the body forms it from a logits tile: shift, exponentiate, sum the lanes. -/
def expS (L : FVec Ideal S512x2048 .f32) : FVec Ideal S512x1 .f32 :=
  shapeCast S512x1 (multiReduction (F := Ideal) .add [1] S512
    (exp (subf L (broadcast S512x2048 (Scalar.ofBits .f32 0x41F00000#32)))) 0x00000000#32 reduces_S512x2048_S512 (.inl rfl) rfl)
    shapeCasts_S512_S512x1

/-- The lane sum that keeps the entries a mask selects. -/
def selS (c : IVec S512x2048 1) (L : FVec Ideal S512x2048 .f32) : FVec Ideal S512x1 .f32 :=
  shapeCast S512x1 (multiReduction (F := Ideal) .add [1] S512
    (select c L (broadcast S512x2048 (Scalar.ofBits .f32 0x00000000#32))) 0x00000000#32 reduces_S512x2048_S512 (.inl rfl) rfl)
    shapeCasts_S512_S512x1

theorem expS_apply (L : FVec Ideal S512x2048 .f32) (r : Fin 512) :
    expS L (ix2 r (0 : Fin 1)) = ∑ j : Fin 2048, Ideal.exp (L (ix2 r j) - Aam.scale) := by
  unfold expS
  rw [rowSum_apply]
  rfl

theorem selS_apply (c : IVec S512x2048 1) (L : FVec Ideal S512x2048 .f32) (r : Fin 512) :
    selS c L (ix2 r (0 : Fin 1)) = ∑ j : Fin 2048, Scalar.select (c (ix2 r j)) (L (ix2 r j)) Aam.zero := by
  unfold selS
  rw [rowSum_apply]
  rfl

/-! ## One chunk against the chunked loss: the hypotheses say what the chunk's label word, column numbers, bound and
    cosine tile are on row r -/

/-- The "is the label's column" select on row r is the `if` on the column number. -/
theorem isLab_select {α : Type} (lab : IVec S512x1 32) (colv : IVec S512x2048 32) (r : Fin 512) (l : Fin 5994) (i : Fin 3)
    (hlab : lab (ix2 r (0 : Fin 1)) = BitVec.ofNat 32 l.val)
    (hcol : ∀ j : Fin 2048, colv (ix2 r j) = BitVec.ofNat 32 (2048 * i.val + j.val)) (j : Fin 2048) (a b : α) :
    Scalar.select (IntOp.cmpi .eq (colv (ix2 r j)) (lab (ix2 r (0 : Fin 1)))) a b
      = if (Aam.col i j).val = l.val then a else b := by
  rw [hcol j, hlab]
  exact select_iff _ _ (eq_word _ _ (by have := j.isLt; have := i.isLt; omega) l.isLt) a b

/-- The "column below 5994" select on row r is the `if` on the column number. -/
theorem valid_select {α : Type} (colv bound : IVec S512x2048 32) (r : Fin 512) (i : Fin 3)
    (hcol : ∀ j : Fin 2048, colv (ix2 r j) = BitVec.ofNat 32 (2048 * i.val + j.val))
    (hbound : ∀ j : Fin 2048, bound (ix2 r j) = 5994#32) (j : Fin 2048) (a b : α) :
    Scalar.select (IntOp.cmpi .slt (colv (ix2 r j)) (bound (ix2 r j))) a b
      = if (Aam.col i j).val < 5994 then a else b := by
  rw [hcol j, hbound j]
  exact select_iff _ _ (slt_word _ (by have := j.isLt; have := i.isLt; omega)) a b

/-- The chunk's logits tile on row r is the chunked loss's `logitK`. -/
theorem chunk_logit (lab : IVec S512x1 32) (C : FVec Ideal S512x2048 .f32) (colv bound : IVec S512x2048 32) (r : Fin 512)
    (u : Fin 256 → EReal) (wn : Fin 6144 → Fin 256 → EReal) (l : Fin 5994) (i : Fin 3)
    (hlab : lab (ix2 r (0 : Fin 1)) = BitVec.ofNat 32 l.val)
    (hcol : ∀ j : Fin 2048, colv (ix2 r j) = BitVec.ofNat 32 (2048 * i.val + j.val))
    (hbound : ∀ j : Fin 2048, bound (ix2 r j) = 5994#32)
    (hC : ∀ j : Fin 2048, C (ix2 r j) = Aam.cosK u wn i j) (j : Fin 2048) :
    k1_pay19 (F := Ideal) lab C colv bound (ix2 r j) = Aam.logitK u wn l i j := by
  have hs : (∑ j' : Fin 2048,
      Scalar.select (IntOp.cmpi .eq (colv (ix2 r j')) (lab (ix2 r (0 : Fin 1)))) (C (ix2 r j')) Aam.zero)
      = Aam.cosLabK u wn l i := by
    unfold Aam.cosLabK
    refine Finset.sum_congr rfl fun j' _ => ?_
    rw [isLab_select lab colv r l i hlab hcol j', hC j']
    unfold Aam.zero
    rw [Ideal.ofBits_zero_f32]
  rw [pay19_apply, hs, valid_select colv bound r i hcol hbound j, isLab_select lab colv r l i hlab hcol j, hC j]
  rfl

/-- The chunk's share of Σ e^{logit − s} on row r. -/
theorem chunk_expSum (lab : IVec S512x1 32) (C : FVec Ideal S512x2048 .f32) (colv bound : IVec S512x2048 32) (r : Fin 512)
    (u : Fin 256 → EReal) (wn : Fin 6144 → Fin 256 → EReal) (l : Fin 5994) (i : Fin 3)
    (hlab : lab (ix2 r (0 : Fin 1)) = BitVec.ofNat 32 l.val)
    (hcol : ∀ j : Fin 2048, colv (ix2 r j) = BitVec.ofNat 32 (2048 * i.val + j.val))
    (hbound : ∀ j : Fin 2048, bound (ix2 r j) = 5994#32)
    (hC : ∀ j : Fin 2048, C (ix2 r j) = Aam.cosK u wn i j) :
    expS (k1_pay19 (F := Ideal) lab C colv bound) (ix2 r (0 : Fin 1)) = Aam.expSumK u wn l i := by
  rw [expS_apply]
  unfold Aam.expSumK
  exact Finset.sum_congr rfl fun j _ => by rw [chunk_logit lab C colv bound r u wn l i hlab hcol hbound hC j]

/-- The chunk's share of the label's logit on row r. -/
theorem chunk_sel (lab : IVec S512x1 32) (C : FVec Ideal S512x2048 .f32) (colv bound : IVec S512x2048 32) (r : Fin 512)
    (u : Fin 256 → EReal) (wn : Fin 6144 → Fin 256 → EReal) (l : Fin 5994) (i : Fin 3)
    (hlab : lab (ix2 r (0 : Fin 1)) = BitVec.ofNat 32 l.val)
    (hcol : ∀ j : Fin 2048, colv (ix2 r j) = BitVec.ofNat 32 (2048 * i.val + j.val))
    (hbound : ∀ j : Fin 2048, bound (ix2 r j) = 5994#32)
    (hC : ∀ j : Fin 2048, C (ix2 r j) = Aam.cosK u wn i j) :
    selS (k1_pay18 lab colv) (k1_pay19 (F := Ideal) lab C colv bound) (ix2 r (0 : Fin 1)) = Aam.selK u wn l i := by
  rw [selS_apply]
  unfold Aam.selK
  refine Finset.sum_congr rfl fun j _ => ?_
  rw [chunk_logit lab C colv bound r u wn l i hlab hcol hbound hC j]
  show Scalar.select (IntOp.cmpi .eq (colv (ix2 r j)) (broadcastTo S512x2048 lab broadcasts_S512x1_S512x2048 (ix2 r j))) _ Aam.zero = _
  rw [bcol_apply, isLab_select lab colv r l i hlab hcol j]
  unfold Aam.zero
  rw [Ideal.ofBits_zero_f32]

/-! ## The body's pieces in terms of the chunk quantities -/

/-- A cosine tile: the normalized embeddings against one transposed chunk of prototype rows. -/
def cosT (u : FVec Ideal S512x256 .f32) (W : Vec Ideal S2048x256 .f32) : FVec Ideal S512x2048 .f32 :=
  matmul (φ₁ := .f32) (φ₂ := .f32) dot_S512x256_S256x2048_S512x2048_1_0_0_1_n_n (some .fp32) u
    (transpose S256x2048 [1, 0] (shapeCast S2048x256 W shapeCasts_S2048x256_S2048x256) transposes_S2048x256_p1_0_S256x2048)
    (constant S512x2048 .f32 0x00000000#32)

theorem pay6_eq (v0 : Vec Ideal S512x1024 .f32) (v1 : Vec Ideal S256x1024 .f32) (v4 : Vec Ideal S256 .f32)
    (v20 : Vec Ideal S2048x256 .f32) : k1_pay6 (F := Ideal) v0 v1 v4 v20 = cosT (k1_pay2 v0 v1 v4) v20 := rfl

theorem pay15_eq (v15 : FVec Ideal S512x256 .f32) (v73 : Vec Ideal S2048x256 .f32) :
    k1_pay15 (F := Ideal) v15 v73 = cosT v15 v73 := rfl

theorem pay9_eq (v16 : Vec Ideal S512x1 .i32) : k1_pay9 (F := Ideal) v16 = k1_pay18 (k1_pay3 (F := Ideal) v16) k1_pay7 := rfl

theorem pay24_eq (v17 : IVec S512x1 32) : k1_pay24 v17 = k1_pay18 v17 k1_pay23 := rfl

/-- Chunk 0's logits tile is the generic chunk's, at its own cosine tile, column numbers and bound. -/
theorem pay12_eq (v0 : Vec Ideal S512x1024 .f32) (v1 : Vec Ideal S256x1024 .f32) (v4 : Vec Ideal S256 .f32)
    (v16 : Vec Ideal S512x1 .i32) (v20 : Vec Ideal S2048x256 .f32) :
    k1_pay12 (F := Ideal) (k1_pay6 v0 v1 v4 v20) k1_pay8 (k1_pay9 (F := Ideal) v16) (k1_pay10 v0 v1 v4 v16 v20)
        (k1_pay11 v0 v1 v4 v16 v20) (Scalar.ofBits .f32 0x00000000#32)
      = k1_pay19 (k1_pay3 (F := Ideal) v16) (k1_pay6 v0 v1 v4 v20) k1_pay7 (broadcast S512x2048 5994#32) := rfl

/-- Chunk 2's logits tile likewise. -/
theorem pay25_eq (v15 : FVec Ideal S512x256 .f32) (v17 : IVec S512x1 32) (v126 : Vec Ideal S2048x256 .f32) :
    k1_pay25 (F := Ideal) v15 v17 v126 = k1_pay19 v17 (cosT v15 v126) k1_pay23 (broadcast S512x2048 5994#32) := rfl

theorem pay13_eq (v18 : FVec Ideal S512x1 .f32) (v23 : FVec Ideal S512x2048 .f32) (v28 v30 : IVec S512x2048 1)
    (v34 v37 : FVec Ideal S512x1 .f32) (c : Ideal .f32) :
    k1_pay13 (F := Ideal) v18 v23 v28 v30 v34 v37 c = addf v18 (expS (k1_pay12 v23 v28 v30 v34 v37 c)) := rfl

theorem pay14_eq (v19 : FVec Ideal S512x1 .f32) (v23 : FVec Ideal S512x2048 .f32) (v28 v30 : IVec S512x2048 1)
    (v34 v37 : FVec Ideal S512x1 .f32) (c : Ideal .f32) :
    k1_pay14 (F := Ideal) v19 v23 v28 v30 v34 v37 c = addf v19 (selS v30 (k1_pay12 v23 v28 v30 v34 v37 c)) := rfl

theorem pay20_eq (v17 : IVec S512x1 32) (v67 : FVec Ideal S512x1 .f32) (v76 : FVec Ideal S512x2048 .f32)
    (v79 v80 : IVec S512x2048 32) :
    k1_pay20 (F := Ideal) v17 v67 v76 v79 v80 = addf v67 (expS (k1_pay19 v17 v76 v79 v80)) := rfl

theorem pay21_eq (v17 : IVec S512x1 32) (v76 : FVec Ideal S512x2048 .f32) (v79 v80 : IVec S512x2048 32) :
    k1_pay21 (F := Ideal) v17 v76 v79 v80 = selS (k1_pay18 v17 v79) (k1_pay19 v17 v76 v79 v80) := rfl

theorem pay22_eq (v72 v124 : FVec Ideal S512x1 .f32) : k1_pay22 (F := Ideal) v72 v124 = addf v72 v124 := rfl

/-- The stored column at an entry: 0 − (sel − (s + log expSum)), the last chunk's shares added in. -/
theorem pay1_apply (v120 v125 : FVec Ideal S512x1 .f32) (v136 : IVec S512x2048 1) (v167 : FVec Ideal S512x2048 .f32)
    (i : S512x1.Idx) :
    k1_pay1 (F := Ideal) v120 v125 v136 v167 i
      = Aam.zero - ((v125 i + selS v136 v167 i) - (Aam.scale + Ideal.log (v120 i + expS v167 i))) := rfl

/-! ## The chunk's inputs on row r: column numbers, the loaded rows of the table, the cosine tile -/

/-- The lane number plus the chunk's offset, at (r, j). -/
theorem colv_apply (off : Nat) (r : Fin 512) (j : Fin 2048) :
    addi (iota .tc S512x2048 32 [1] iota_S512x2048_d1_w32) (broadcast S512x2048 (BitVec.ofNat 32 off)) (ix2 r j)
      = BitVec.ofNat 32 (off + j.val) := by
  show IntOp.addi (iota .tc S512x2048 32 [1] iota_S512x2048_d1_w32 (ix2 r j)) (BitVec.ofNat 32 off) = _
  rw [iota_single_apply]
  show BitVec.ofNat 32 j.val + BitVec.ofNat 32 off = _
  rw [← BitVec.ofNat_add, Nat.add_comm]

/-- A chunk's cosine tile at (r, j): the inner product of the sample's normalized embedding with the row of the table
    the chunk's row j was loaded from. -/
theorem cosT_apply (x0 : Vec Ideal S512x1024 .f32) (x1 : Vec Ideal S256x1024 .f32) (x2 : Vec Ideal S256 .f32)
    (x3 : Vec Ideal S6144x256 .f32) (W : Vec Ideal S2048x256 .f32) (i : Fin 3)
    (hW : ∀ (j : Fin 2048) (p : Fin 256), W (ix2 j p) = x3 (ix2 (Aam.col i j) p)) (r : Fin 512) (j : Fin 2048) :
    cosT (k1_pay2 (F := Ideal) x0 x1 x2) W (ix2 r j)
      = Aam.cosK (Aam.unit (Aam.emb (fun k => x0 (ix2 r k)) (fun q k => x1 (ix2 q k)) (fun q => x2 (ix1 q))))
          (fun c p => x3 (ix2 c p)) i j := by
  unfold cosT Aam.cosK Aam.dot
  rw [EmbValue.cosTile_apply]
  exact Finset.sum_congr rfl fun p _ => by rw [EmbValue.pay2_apply, hW]

/-- Entry (r, 0) of the body's output block, for a label word that is the class number ℓ < 5994. -/
theorem out1_5_apply (x0 : Vec Ideal S512x1024 .f32) (x1 : Vec Ideal S256x1024 .f32) (x2 : Vec Ideal S256 .f32)
    (x3 : Vec Ideal S6144x256 .f32) (x4 : Vec Ideal S512x1 .i32) (r : Fin 512) (ℓ : Fin 5994)
    (hℓ : x4 (ix2 r (0 : Fin 1)) = BitVec.ofNat 32 ℓ.val) :
    out1_5 (F := Ideal) x0 x1 x2 x3 x4 (ix2 r (0 : Fin 1))
      = Aam.rowNllK (Aam.unit (Aam.emb (fun k => x0 (ix2 r k)) (fun q k => x1 (ix2 q k)) (fun q => x2 (ix1 q))))
          (fun c p => x3 (ix2 c p)) ℓ := by
  have hz : (![0, 0] : Fin 2 → Nat) = fun _ => 0 := funext fun a => by match a with | ⟨0, _⟩ => rfl | ⟨1, _⟩ => rfl
  have hz1 : (![0] : Fin 1 → Nat) = fun _ => 0 := funext fun a => by match a with | ⟨0, _⟩ => rfl
  -- the label word, the column numbers and the bounds of the three chunks on row r
  have hlab : k1_pay3 (F := Ideal) x4 (ix2 r (0 : Fin 1)) = BitVec.ofNat 32 ℓ.val := by
    show shapeCast S512x1 x4 shapeCasts_S512x1_S512x1 (ix2 r (0 : Fin 1)) = _
    rw [shapeCast_self]; exact hℓ
  have hcol0 : ∀ j : Fin 2048, k1_pay7 (ix2 r j) = BitVec.ofNat 32 (2048 * (0 : Fin 3).val + j.val) := fun j =>
    colv_apply 0 r j
  have hcol1 : ∀ j : Fin 2048, k1_pay16 (ix2 r j) = BitVec.ofNat 32 (2048 * (1 : Fin 3).val + j.val) := fun j =>
    colv_apply 2048 r j
  have hcol2 : ∀ j : Fin 2048, k1_pay23 (ix2 r j) = BitVec.ofNat 32 (2048 * (2 : Fin 3).val + j.val) := fun j =>
    colv_apply 4096 r j
  have hb : ∀ j : Fin 2048, broadcast S512x2048 5994#32 (ix2 r j) = 5994#32 := fun _ => rfl
  have hb1 : ∀ j : Fin 2048, k1_pay17 (ix2 r j) = 5994#32 := fun _ => rfl
  -- the three loads of the resident table: rows 2048 i + j
  have hW0 : ∀ (j : Fin 2048) (p : Fin 256), View.ld x3 r1_4 (ix2 j p) = x3 (ix2 (Aam.col 0 j) p) := fun j p =>
    congrArg x3 (funext fun a => Fin.ext (by
      match a with
      | ⟨0, _⟩ => show 0 + 1 * j.val = 2048 * 0 + j.val; omega
      | ⟨1, _⟩ => show 0 + 1 * p.val = p.val; omega))
  have hW1 : ∀ (j : Fin 2048) (p : Fin 256), View.ld x3 r1_5 (ix2 j p) = x3 (ix2 (Aam.col 1 j) p) := fun j p =>
    congrArg x3 (funext fun a => Fin.ext (by
      match a with
      | ⟨0, _⟩ => show 2048 + 1 * j.val = 2048 * 1 + j.val; omega
      | ⟨1, _⟩ => show 0 + 1 * p.val = p.val; omega))
  have hW2 : ∀ (j : Fin 2048) (p : Fin 256), View.ld x3 r1_6 (ix2 j p) = x3 (ix2 (Aam.col 2 j) p) := fun j p =>
    congrArg x3 (funext fun a => Fin.ext (by
      match a with
      | ⟨0, _⟩ => show 4096 + 1 * j.val = 2048 * 2 + j.val; omega
      | ⟨1, _⟩ => show 0 + 1 * p.val = p.val; omega))
  unfold out1_5
  rw [View.canon_unit_zero hz]
  simp only [View.ld_unit_zero (S := S512x1024) hz, View.ld_unit_zero (S := S256x1024) hz,
    View.ld_unit_zero (S := S256) hz1, View.ld_unit_zero (S := S512x1) hz]
  rw [pay1_apply, pay20_eq, pay22_eq, pay14_eq, pay21_eq, pay13_eq, pay12_eq, pay25_eq, pay24_eq, pay9_eq, pay6_eq, pay15_eq]
  simp only [addf_apply]
  rw [chunk_sel (k1_pay3 (F := Ideal) x4) (cosT (k1_pay2 x0 x1 x2) (View.ld x3 r1_4)) k1_pay7 (broadcast S512x2048 5994#32) r _ _ ℓ 0
      hlab hcol0 hb (cosT_apply x0 x1 x2 x3 _ 0 hW0 r),
    chunk_sel (k1_pay3 (F := Ideal) x4) (cosT (k1_pay2 x0 x1 x2) (View.ld x3 r1_5)) k1_pay16 k1_pay17 r _ _ ℓ 1
      hlab hcol1 hb1 (cosT_apply x0 x1 x2 x3 _ 1 hW1 r),
    chunk_sel (k1_pay3 (F := Ideal) x4) (cosT (k1_pay2 x0 x1 x2) (View.ld x3 r1_6)) k1_pay23 (broadcast S512x2048 5994#32) r _ _ ℓ 2
      hlab hcol2 hb (cosT_apply x0 x1 x2 x3 _ 2 hW2 r),
    chunk_expSum (k1_pay3 (F := Ideal) x4) (cosT (k1_pay2 x0 x1 x2) (View.ld x3 r1_4)) k1_pay7 (broadcast S512x2048 5994#32) r _ _ ℓ 0
      hlab hcol0 hb (cosT_apply x0 x1 x2 x3 _ 0 hW0 r),
    chunk_expSum (k1_pay3 (F := Ideal) x4) (cosT (k1_pay2 x0 x1 x2) (View.ld x3 r1_5)) k1_pay16 k1_pay17 r _ _ ℓ 1
      hlab hcol1 hb1 (cosT_apply x0 x1 x2 x3 _ 1 hW1 r),
    chunk_expSum (k1_pay3 (F := Ideal) x4) (cosT (k1_pay2 x0 x1 x2) (View.ld x3 r1_6)) k1_pay23 (broadcast S512x2048 5994#32) r _ _ ℓ 2
      hlab hcol2 hb (cosT_apply x0 x1 x2 x3 _ 2 hW2 r)]
  have h5 : k1_pay5 (F := Ideal) (ix2 r (0 : Fin 1)) = 0 := Ideal.ofBits_zero_f32
  have h4 : k1_pay4 (F := Ideal) (ix2 r (0 : Fin 1)) = 0 := Ideal.ofBits_zero_f32
  rw [h5, h4, show Aam.zero = 0 from Ideal.ofBits_zero_f32, zero_add, zero_add, zero_sub]
  rfl

end Cert.KernelIdeal.RowValue

end
-- ==== Proof.KernelNorm.lean ====
/-
  What the loss kernel finds in its five input arrays when it is entered.
  Before it run two stretches of host operations (the labels reshaped to a column; the prototype table padded with 150 zero
  rows to 6144) and the normalizing kernel, which divides every row of the padded table by its floored L2 norm, three
  blocks of 2048 rows, each written back to the rows it was read from. So, on entry: the feature matrix, the layer weights
  and the bias are the launch arguments untouched; the label column holds the labels; row r of the normalized table is
  `Aam.unit (Aam.padRow W r)`.
-/
import proofs.«400184_j68195490726508_2_alg».proof.Proof.Gen.KernelIdeal.Frame
import proofs.«400184_j68195490726508_2_alg».proof.Proof.Spec
import Idealize.ShloMosaic.Lib.ValueIdx
import Idealize.ShloMosaic.Lib.Pipeline.Value
import Idealize.ShloMosaic.PureOps.Ideal.Laws
import Idealize.ShloMosaic.Lib.KernelVsHost

noncomputable section

namespace Cert.KernelIdeal.NormValue

open Cert.KernelIdeal Cert.KernelIdeal.Gen Idealize.ShloMosaic Idealize.ShloMosaic.ValueIdx Idealize.ShloMosaic.TcCoe Idealize.SL.Sem

variable (m : (ℓ : Loc nD τ sig) → Buf (Elt Ideal) ℓ) (ρ : Dev nD → PrngReg)

/-- The feature matrix as launched. -/
theorem entry_x (c : Dev nD) : V3 (F := Ideal) m ρ c (Pipeline.arrRef spec1 0) = m ((c : Thread nD τ).loc main_arg0) := by
  show W3 m ρ c (Proc.devRef .tc main_arg0) = _
  rw [W3_of_ne m ρ c main_arg0 (by decide)]
  show StableHlo.after hostOps0_1 (StableHlo.after hostOps0 (W0 m ρ c)) (Proc.devRef .tc main_arg0) = _
  after_results

/-- The layer weights as launched. -/
theorem entry_wfc (c : Dev nD) : V3 (F := Ideal) m ρ c (Pipeline.arrRef spec1 1) = m ((c : Thread nD τ).loc main_arg2) := by
  show W3 m ρ c (Proc.devRef .tc main_arg2) = _
  rw [W3_of_ne m ρ c main_arg2 (by decide)]
  show StableHlo.after hostOps0_1 (StableHlo.after hostOps0 (W0 m ρ c)) (Proc.devRef .tc main_arg2) = _
  after_results

/-- The bias as launched. -/
theorem entry_bfc (c : Dev nD) : V3 (F := Ideal) m ρ c (Pipeline.arrRef spec1 2) = m ((c : Thread nD τ).loc main_arg3) := by
  show W3 m ρ c (Proc.devRef .tc main_arg3) = _
  rw [W3_of_ne m ρ c main_arg3 (by decide)]
  show StableHlo.after hostOps0_1 (StableHlo.after hostOps0 (W0 m ρ c)) (Proc.devRef .tc main_arg3) = _
  after_results

/-! ## The normalizing kernel's body at an entry -/

/-- The zero offsets, as the constant function. -/
theorem hz : (![0, 0] : Fin 2 → Nat) = fun _ => 0 := funext fun a => by
  match a with
  | ⟨0, _⟩ => rfl
  | ⟨1, _⟩ => rfl

/-- Column `q` inserted into row `r`: the entry (r, q). -/
theorem lift_row (r : Fin 2048) (q : Fin 256) :
    reduces_S2048x256_S2048.lift (ix1 r) q = ix2 r q := by
  funext a
  match a with
  | ⟨0, _⟩ => rfl
  | ⟨1, _⟩ => rfl

/-- The normalizing body at an entry: the entry divided by the floored L2 norm of its row. -/
theorem pay_apply (x : Vec Ideal S2048x256 .f32) (r : Fin 2048) (p : Fin 256) :
    k0_pay1 x (ix2 r p) = Aam.unit (fun q => x (ix2 r q)) p := by
  unfold k0_pay1 Aam.unit Aam.den
  simp only [shapeCast_self]
  refine congrArg (Ideal.div (x (ix2 r p))) ?_
  refine (broadcastTo_apply _ broadcasts_S2048x1_S2048x256 (ix2 r p) (ix2 r (0 : Fin 1)) ?_).trans ?_
  · intro a
    match a with
    | ⟨0, _⟩ => rfl
    | ⟨1, _⟩ => rfl
  refine congrArg (fun z => max z Aam.eps) ?_
  refine congrArg Ideal.sqrt ?_
  refine (shapeCast_apply _ shapeCasts_S2048_S2048x1 (ix2 r (0 : Fin 1)) (ix1 r) ?_).trans ?_
  · rw [Shape.rowMajor_val_two, Shape.rowMajor_val_one]
    show r.val = r.val * 1 + 0
    omega
  refine (Ideal.multiReduction_add_single _ _ reduces_S2048x256_S2048 _ _ (ix1 r)).trans ?_
  refine Finset.sum_congr rfl fun q _ => ?_
  exact congrArg (fun i => x i * x i) (lift_row r q)

/-! ## From the three blocks to the table -/

/-- Every row of a table of 256 columns divided by its floored L2 norm. -/
def normTab (X : S6144x256.Idx → EReal) : S6144x256.Idx → EReal :=
  fun i => Aam.unit (fun q : Fin 256 => X (ix2 (i 0) q)) (i 1)

/-- The body on a block that is 2048 whole rows of a table, row `r` of the block being row `g r` of the table:
    the block of the normalized table. -/
theorem pay_rows (X : S6144x256.Idx → EReal) (e : S2048x256.Idx → S6144x256.Idx) (g : Fin 2048 → Fin 6144)
    (he : ∀ (r : Fin 2048) (q : Fin 256), e (ix2 r q) = ix2 (g r) q) (j : S2048x256.Idx) :
    k0_pay1 (F := Ideal) (fun y => X (e y)) j = normTab X (e j) := by
  obtain ⟨r, p, rfl⟩ : ∃ (r : Fin 2048) (p : Fin 256), j = ix2 r p := ⟨j 0, j 1, eq_ix2 j⟩
  rw [pay_apply, he r p]
  unfold normTab
  refine congrArg (fun v : Fin 256 → EReal => Aam.unit v p) (funext fun q => ?_)
  rw [he r q]

/-- The two windows of the normalizing kernel move together, one block of 2048 rows per grid point. -/
theorem idx_facts : ∀ t : Fin cfg0.N, win0_0.index t (0 : Fin 2) = win0_1.index t (0 : Fin 2)
    ∧ win0_0.index t (1 : Fin 2) = 0 ∧ win0_1.index t (1 : Fin 2) = 0 ∧ win0_1.index t (0 : Fin 2) ≤ 2 :=
  (by decide +kernel : ∀ t : Fin grid0.N, _)

/-- Every block of rows is some point's. -/
theorem idx_onto : ∀ q0 : Fin 3, ∃ t : Fin cfg0.N, win0_1.index t = ![q0.val, 0] :=
  (by decide +kernel : ∀ q0 : Fin 3, ∃ t : Fin grid0.N, win0_1.index t = ![q0.val, 0])

/-- What point `t` writes back is its block of the normalized table. -/
theorem flushed_eq (c : Dev nD) (t : Fin cfg0.N) :
    (dat0 (V2 m ρ) c).flushed 1 t
      = ((cfg0.win 1).blk t).view.read (Elt Ideal) (normTab (V2 (F := Ideal) m ρ c (Pipeline.arrRef spec0 0))) := by
  show (cfg0.win 1).cut (grid0.coords t) ((dat0 (V2 m ρ) c).after 1 t) = _
  rw [after0_1]
  unfold out0_1
  rw [View.canon_unit_zero hz]
  simp only [View.ld_unit_zero (S := S2048x256) hz]
  obtain ⟨e0, e1, e2, e3⟩ := idx_facts t
  have hin : iblk0 (V2 (F := Ideal) m ρ) c 0 t
      = fun y => V2 (F := Ideal) m ρ c (Pipeline.arrRef spec0 0) (((cfg0.win 1).blk t).view.emb y) := by
    funext y
    show V2 (F := Ideal) m ρ c (Pipeline.arrRef spec0 0) (((cfg0.win 0).blk t).view.emb y) = _
    refine congrArg _ (funext fun a => Fin.ext ?_)
    match a with
    | ⟨0, _⟩ =>
      show win0_0.index t (0 : Fin 2) * 2048 + 1 * (y 0).val = win0_1.index t (0 : Fin 2) * 2048 + 1 * (y 0).val
      omega
    | ⟨1, _⟩ =>
      show win0_0.index t (1 : Fin 2) * 256 + 1 * (y 1).val = win0_1.index t (1 : Fin 2) * 256 + 1 * (y 1).val
      omega
  rw [hin]
  funext j
  exact pay_rows (V2 (F := Ideal) m ρ c (Pipeline.arrRef spec0 0)) ((cfg0.win 1).blk t).view.emb
    (fun r => ⟨win0_1.index t (0 : Fin 2) * 2048 + r.val, by have := r.isLt; omega⟩) (fun r q => by
      funext a
      apply Fin.ext
      match a with
      | ⟨0, _⟩ =>
        show win0_1.index t (0 : Fin 2) * 2048 + 1 * r.val = win0_1.index t (0 : Fin 2) * 2048 + r.val
        omega
      | ⟨1, _⟩ =>
        show win0_1.index t (1 : Fin 2) * 256 + 1 * q.val = q.val
        omega) j

/-- An index of the table is in point `t`'s block iff each coordinate is in the block's range on its axis. -/
theorem mem_blk (t : Fin cfg0.N) (i : S6144x256.Idx) :
    i ∈ ((cfg0.win 1).blk t).view.set ↔ ∀ a : Fin 2, win0_1.index t a * S2048x256.size a ≤ (i a).val
      ∧ (i a).val < win0_1.index t a * S2048x256.size a + S2048x256.size a := by
  show i ∈ ((View.whole main_v2).slice (win0_1.rect t)).set ↔ _
  rw [View.set_slice_whole, Rect.mem_set_unit]
  exact Iff.rfl

/-- Row `i 0` lies in the block of point `i 0 / 2048`: the three blocks cover the table. -/
theorem cover (i : S6144x256.Idx) :
    ∃ t : Fin cfg0.N, (cfg0.win 1).flush t = true ∧ i ∈ ((cfg0.win 1).blk t).view.set := by
  have hi0 : (i 0).val < 6144 := (i 0).isLt
  have hi1 : (i 1).val < 256 := (i 1).isLt
  obtain ⟨t, ht⟩ := idx_onto ⟨(i 0).val / 2048, by omega⟩
  have q0 : win0_1.index t (0 : Fin 2) = (i 0).val / 2048 := congrFun ht 0
  have q1 : win0_1.index t (1 : Fin 2) = 0 := congrFun ht 1
  refine ⟨t, flush0_1 t, ?_⟩
  rw [mem_blk]
  intro a
  match a with
  | ⟨0, _⟩ =>
    show win0_1.index t (0 : Fin 2) * 2048 ≤ (i 0).val ∧ (i 0).val < win0_1.index t (0 : Fin 2) * 2048 + 2048
    omega
  | ⟨1, _⟩ =>
    show win0_1.index t (1 : Fin 2) * 256 ≤ (i 1).val ∧ (i 1).val < win0_1.index t (1 : Fin 2) * 256 + 256
    omega

/-- The normalizing kernel's output array after its run: the normalized table. -/
theorem final (c : Dev nD) :
    (dat0 (V2 m ρ) c).arrAt 1 cfg0.N = normTab (V2 (F := Ideal) m ρ c (Pipeline.arrRef spec0 0)) :=
  (dat0 (V2 m ρ) c).arrAt_eq_of_cover 1 _ (fun t _ => flushed_eq m ρ c t) cover

/-- The table the normalizing kernel reads is the host's zero padding of the prototype table. -/
theorem pad_tab (c : Dev nD) : V2 (F := Ideal) m ρ c (Pipeline.arrRef spec0 0)
    = (pad S6144x256 ![0, 0] ![150, 0] ![0, 0] (m ((c : Thread nD τ).loc main_arg4))
        (sitofp (F := Ideal) .f32 (constantI S_ 32 0#32)) pads_S5994x256_S6144x256_01500_000 h_S_ : S6144x256.Idx → Elt Ideal .f32) := by
  show StableHlo.after hostOps0_1 (StableHlo.after hostOps0 (W0 m ρ c)) (Proc.devRef .tc main_v1) = _
  after_results
  rfl

/-- Read at an entry: the prototype's entry on the first 5994 rows, 0 below them. -/
theorem pad_read (c : Dev nD) (r : Fin 6144) (q : Fin 256) :
    V2 (F := Ideal) m ρ c (Pipeline.arrRef spec0 0) (ix2 r q)
      = Aam.padRow (fun c' q' => m ((c : Thread nD τ).loc main_arg4) (ix2 c' q')) r q := by
  rw [pad_tab]
  unfold Aam.padRow
  by_cases h : r.val < 5994
  · rw [dif_pos h]
    exact pad_apply_of_inside _ _ _ _ _ pads_S5994x256_S6144x256_01500_000 h_S_ (ix2 r q) (ix2 ⟨r.val, h⟩ q) (fun a => by
      match a with
      | ⟨0, _⟩ => show r.val = 0 + r.val * (0 + 1); omega
      | ⟨1, _⟩ => show q.val = 0 + q.val * (0 + 1); omega)
  · rw [dif_neg h]
    refine (pad_apply_of_not_inside _ _ _ _ _ pads_S5994x256_S6144x256_01500_000 h_S_ (ix2 r q) (0 : Fin 2) ?_).trans ?_
    · show ¬(0 ≤ r.val ∧ (r.val - 0) % (0 + 1) = 0 ∧ (r.val - 0) / (0 + 1) < 5994)
      omega
    · show ((((0#32 : BitVec 32).toInt : ℤ) : ℝ) : EReal) = 0
      simp

/-- Row r of the normalized, padded prototype table. -/
theorem entry_wn (c : Dev nD) (r : Fin 6144) (p : Fin 256) :
    V3 (F := Ideal) m ρ c (Pipeline.arrRef spec1 3) (ix2 r p)
      = Aam.unit (Aam.padRow (fun c' q => m ((c : Thread nD τ).loc main_arg4) (ix2 c' q)) r) p := by
  show W3 m ρ c (Proc.devRef .tc (Pipeline.arrRef spec0 1)) (ix2 r p) = _
  rw [W3_arr, final]
  show Aam.unit (fun q : Fin 256 => V2 (F := Ideal) m ρ c (Pipeline.arrRef spec0 0) (ix2 r q)) p = _
  refine congrArg (fun v : Fin 256 → EReal => Aam.unit v p) (funext fun q => ?_)
  exact pad_read m ρ c r q

/-- The label column as the loss kernel finds it: the host's reshape of the labels. -/
theorem lab_col (c : Dev nD) : V3 (F := Ideal) m ρ c (Pipeline.arrRef spec1 4)
    = (shapeCast S4096x1 (m ((c : Thread nD τ).loc main_arg1)) shapeCasts_S4096_S4096x1 : S4096x1.Idx → Elt Ideal .i32) := by
  show W3 m ρ c (Proc.devRef .tc main_v0) = _
  rw [W3_of_ne m ρ c main_v0 (by decide)]
  show StableHlo.after hostOps0_1 (StableHlo.after hostOps0 (W0 m ρ c)) (Proc.devRef .tc main_v0) = _
  after_results
  rfl

/-- The label column. -/
theorem entry_lab (c : Dev nD) (b : Fin 4096) :
    V3 (F := Ideal) m ρ c (Pipeline.arrRef spec1 4) (ix2 b (0 : Fin 1)) = m ((c : Thread nD τ).loc main_arg1) (ix1 b) := by
  rw [lab_col]
  refine shapeCast_apply _ shapeCasts_S4096_S4096x1 (ix2 b (0 : Fin 1)) (ix1 b) ?_
  rw [Shape.rowMajor_val_two, Shape.rowMajor_val_one]
  show b.val = b.val * 1 + 0
  omega

end Cert.KernelIdeal.NormValue

end
-- ==== Proof.KernelArr.lean ====
/-
  The kernel program's run with its result named: the batch mean of the chunked losses `Aam.rowNllK` of the samples'
  normalized embeddings against the padded table of normalized prototypes.
  The loss kernel runs over a grid of eight points; point t stages rows 512·t … 512·t + 511 of the feature matrix and of the
  label column, the whole layer weights, bias and normalized table, and writes back rows 512·t … of the loss column. So the
  eight blocks tile the column, block t holding its samples' losses (the body's value at the block's rows, every input read
  where the block sits), and the column ends as ONE function of the launch arrays. The host operations after it sum the
  column (from 0) and divide by 4096.
-/
import proofs.«400184_j68195490726508_2_alg».proof.Proof.Gen.KernelIdeal.Frame
import proofs.«400184_j68195490726508_2_alg».proof.Proof.Spec
import Idealize.ShloMosaic.Lib.ValueIdx
import Idealize.ShloMosaic.Lib.Pipeline.Value
import Idealize.ShloMosaic.PureOps.Ideal.Laws
import proofs.«400184_j68195490726508_2_alg».proof.Proof.KernelLaunch
import proofs.«400184_j68195490726508_2_alg».proof.Proof.KernelRow
import proofs.«400184_j68195490726508_2_alg».proof.Proof.KernelNorm
import Idealize.ShloMosaic.Lib.StableHlo.Run

set_option maxRecDepth 16384

noncomputable section

namespace Cert.KernelIdeal.RunValue

open Cert.KernelIdeal Cert.KernelIdeal.Gen Idealize.ShloMosaic Idealize.ShloMosaic.ValueIdx Idealize.ShloMosaic.TcCoe Idealize.SL.Sem

variable (m : (ℓ : Loc nD τ sig) → Buf (Elt Ideal) ℓ) (ρ : Dev nD → PrngReg)

/-- Sample b's normalized embedding, from device c's launch memory. -/
def U (c : Dev nD) (b : Fin 4096) : Fin 256 → EReal :=
  Aam.unit (Aam.emb (fun k => m ((c : Thread nD τ).loc main_arg0) (ix2 b k))
    (fun q k => m ((c : Thread nD τ).loc main_arg2) (ix2 q k)) (fun q => m ((c : Thread nD τ).loc main_arg3) (ix1 q)))

/-- The padded table of normalized prototypes, from device c's launch memory. -/
def Wn (c : Dev nD) : Fin 6144 → Fin 256 → EReal :=
  fun r p => Aam.unit (Aam.padRow (fun c' q => m ((c : Thread nD τ).loc main_arg4) (ix2 c' q)) r) p

/-- The loss column as one array: row b holds sample b's chunked loss. -/
def nllArr (lab : Dev nD → Fin 4096 → Fin 5994) (c : Dev nD) : S4096x1.Idx → EReal :=
  fun i => Aam.rowNllK (U m c ⟨(i 0).val, (i 0).isLt⟩) (Wn m c) (lab c ⟨(i 0).val, (i 0).isLt⟩)

/-! ## Where the blocks sit -/

/-- At grid point t the feature, label and loss windows sit at block row t; the weights, bias and table windows are whole. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- Row 512·t + p is a row of the batch. -/
theorem row_lt (t : Fin cfg1.N) (p : Fin 512) : 512 * t.val + p.val < 4096 := by
  have ht : t.val < 8 := t.isLt
  have hp := p.isLt
  omega

/-- The feature block at point t is rows 512·t … of the feature matrix. -/
theorem xblk_apply (c : Dev nD) (t : Fin cfg1.N) (p : Fin 512) (k : Fin 1024) :
    iblk1 (V3 m ρ) c 0 t (ix2 p k) = m ((c : Thread nD τ).loc main_arg0) (ix2 ⟨512 * t.val + p.val, row_lt t p⟩ k) := by
  show V3 m ρ c (Pipeline.arrRef spec1 0) (((cfg1.win 0).blk t).view.emb (ix2 p k)) = _
  refine (congrFun (NormValue.entry_x m ρ c) _).trans (congrArg _ ?_)
  obtain ⟨e0, e1, -⟩ := idx_facts t
  funext a; apply Fin.ext
  match a with
  | ⟨0, _⟩ => show win1_0.index t (0 : Fin 2) * 512 + 1 * p.val = 512 * t.val + p.val; omega
  | ⟨1, _⟩ => show win1_0.index t (1 : Fin 2) * 1024 + 1 * k.val = k.val; omega

/-- The weights block is the whole weight matrix. -/
theorem wfcblk_apply (c : Dev nD) (t : Fin cfg1.N) (q : Fin 256) (k : Fin 1024) :
    iblk1 (V3 m ρ) c 1 t (ix2 q k) = m ((c : Thread nD τ).loc main_arg2) (ix2 q k) := by
  show V3 m ρ c (Pipeline.arrRef spec1 1) (((cfg1.win 1).blk t).view.emb (ix2 q k)) = _
  refine (congrFun (NormValue.entry_wfc m ρ c) _).trans (congrArg _ ?_)
  obtain ⟨-, -, e2, e3, -⟩ := idx_facts t
  funext a; apply Fin.ext
  match a with
  | ⟨0, _⟩ => show win1_1.index t (0 : Fin 2) * 256 + 1 * q.val = q.val; omega
  | ⟨1, _⟩ => show win1_1.index t (1 : Fin 2) * 1024 + 1 * k.val = k.val; omega

/-- The bias block is the whole bias. -/
theorem bfcblk_apply (c : Dev nD) (t : Fin cfg1.N) (q : Fin 256) :
    iblk1 (V3 m ρ) c 2 t (ix1 q) = m ((c : Thread nD τ).loc main_arg3) (ix1 q) := by
  show V3 m ρ c (Pipeline.arrRef spec1 2) (((cfg1.win 2).blk t).view.emb (ix1 q)) = _
  refine (congrFun (NormValue.entry_bfc m ρ c) _).trans (congrArg _ ?_)
  obtain ⟨-, -, -, -, e4, -⟩ := idx_facts t
  funext a; apply Fin.ext
  match a with
  | ⟨0, _⟩ => show win1_2.index t (0 : Fin 1) * 256 + 1 * q.val = q.val; omega

/-- The table block is the whole normalized, padded table. -/
theorem wnblk_apply (c : Dev nD) (t : Fin cfg1.N) (r : Fin 6144) (q : Fin 256) :
    iblk1 (V3 m ρ) c 3 t (ix2 r q) = Wn m c r q := by
  show V3 m ρ c (Pipeline.arrRef spec1 3) (((cfg1.win 3).blk t).view.emb (ix2 r q)) = _
  have he : ((cfg1.win 3).blk t).view.emb (ix2 r q) = ix2 r q := by
    obtain ⟨-, -, -, -, -, e5, e6, -⟩ := idx_facts t
    funext a; apply Fin.ext
    match a with
    | ⟨0, _⟩ => show win1_3.index t (0 : Fin 2) * 6144 + 1 * r.val = r.val; omega
    | ⟨1, _⟩ => show win1_3.index t (1 : Fin 2) * 256 + 1 * q.val = q.val; omega
  rw [he]
  exact NormValue.entry_wn m ρ c r q

/-- The label block at point t is rows 512·t … of the label column, which holds the labels. -/
theorem labblk_apply (c : Dev nD) (t : Fin cfg1.N) (p : Fin 512) :
    iblk1 (V3 m ρ) c 4 t (ix2 p (0 : Fin 1)) = m ((c : Thread nD τ).loc main_arg1) (ix1 ⟨512 * t.val + p.val, row_lt t p⟩) := by
  show V3 m ρ c (Pipeline.arrRef spec1 4) (((cfg1.win 4).blk t).view.emb (ix2 p (0 : Fin 1))) = _
  have he : ((cfg1.win 4).blk t).view.emb (ix2 p (0 : Fin 1)) = ix2 ⟨512 * t.val + p.val, row_lt t p⟩ (0 : Fin 1) := by
    obtain ⟨-, -, -, -, -, -, -, e7, e8, -⟩ := idx_facts t
    funext a; apply Fin.ext
    match a with
    | ⟨0, _⟩ => show win1_4.index t (0 : Fin 2) * 512 + 1 * p.val = 512 * t.val + p.val; omega
    | ⟨1, _⟩ => show win1_4.index t (1 : Fin 2) * 1 + 1 * 0 = 0; omega
  rw [he]
  exact NormValue.entry_lab m ρ c _

/-- A row of the column is in point t's block iff each coordinate is in the block's range on its axis. -/
theorem mem_blk (t : Fin cfg1.N) (i : S4096x1.Idx) :
    i ∈ ((cfg1.win 5).blk t).view.set ↔ ∀ a : Fin 2, win1_5.index t a * S512x1.size a ≤ (i a).val ∧ (i a).val < win1_5.index t a * S512x1.size a + S512x1.size a := by
  show i ∈ ((View.whole main_v3).slice (win1_5.rect t)).set ↔ _
  rw [View.set_slice_whole, Rect.mem_set_unit]
  exact Iff.rfl

/-- Every row of the column lies in some point's block: row r in the block of point r / 512. -/
theorem cover (i : S4096x1.Idx) : ∃ t : Fin cfg1.N, (cfg1.win 5).flush t = true ∧ i ∈ ((cfg1.win 5).blk t).view.set := by
  have hi0 : (i 0).val < 4096 := (i 0).isLt
  have hi1 : (i 1).val < 1 := (i 1).isLt
  have ht : (i 0).val / 512 < 8 := by omega
  obtain ⟨-, -, -, -, -, -, -, -, -, e9, e10⟩ := idx_facts ⟨(i 0).val / 512, ht⟩
  refine ⟨⟨(i 0).val / 512, ht⟩, flush1_5 _, ?_⟩
  rw [mem_blk]
  intro a
  match a with
  | ⟨0, _⟩ =>
    show win1_5.index ⟨(i 0).val / 512, ht⟩ (0 : Fin 2) * 512 ≤ (i 0).val ∧ (i 0).val < win1_5.index ⟨(i 0).val / 512, ht⟩ (0 : Fin 2) * 512 + 512
    rw [e9]; show (i 0).val / 512 * 512 ≤ (i 0).val ∧ (i 0).val < (i 0).val / 512 * 512 + 512; omega
  | ⟨1, _⟩ =>
    show win1_5.index ⟨(i 0).val / 512, ht⟩ (1 : Fin 2) * 1 ≤ (i 1).val ∧ (i 1).val < win1_5.index ⟨(i 0).val / 512, ht⟩ (1 : Fin 2) * 1 + 1
    rw [e10]; omega

/-! ## The loss column -/

section Column
variable (lab : Dev nD → Fin 4096 → Fin 5994)
  (hlab : ∀ (c : Dev nD) (b : Fin 4096), m ((c : Thread nD τ).loc main_arg1) (ix1 b) = BitVec.ofNat 32 (lab c b).val)
include hlab

/-- What point t writes back is block t of the loss column. -/
theorem flushed_eq (c : Dev nD) (t : Fin cfg1.N) :
    (dat1 (V3 m ρ) c).flushed 5 t = ((cfg1.win 5).blk t).view.read (Elt Ideal) (nllArr m lab c) := by
  show (cfg1.win 5).cut (grid1.coords t) ((dat1 (V3 m ρ) c).after 5 t) = _
  rw [after1_5]
  funext y
  obtain ⟨p, q, rfl⟩ : ∃ (p : Fin 512) (q : Fin 1), y = ix2 p q := ⟨y 0, y 1, eq_ix2 y⟩
  obtain rfl : q = 0 := Subsingleton.elim _ _
  have he : ((cfg1.win 5).blk t).view.emb (ix2 p (0 : Fin 1)) = ix2 ⟨512 * t.val + p.val, row_lt t p⟩ (0 : Fin 1) := by
    obtain ⟨-, -, -, -, -, -, -, -, -, e9, e10⟩ := idx_facts t
    funext a; apply Fin.ext
    match a with
    | ⟨0, _⟩ => show win1_5.index t (0 : Fin 2) * 512 + 1 * p.val = 512 * t.val + p.val; omega
    | ⟨1, _⟩ => show win1_5.index t (1 : Fin 2) * 1 + 1 * 0 = 0; omega
  show out1_5 (iblk1 (V3 m ρ) c 0 t) (iblk1 (V3 m ρ) c 1 t) (iblk1 (V3 m ρ) c 2 t) (iblk1 (V3 m ρ) c 3 t) (iblk1 (V3 m ρ) c 4 t) (ix2 p (0 : Fin 1))
      = nllArr m lab c (((cfg1.win 5).blk t).view.emb (ix2 p (0 : Fin 1)))
  rw [he]
  refine (RowValue.out1_5_apply _ _ _ _ _ p (lab c ⟨512 * t.val + p.val, row_lt t p⟩)
    ((labblk_apply m ρ c t p).trans (hlab c _))).trans ?_
  simp only [xblk_apply, wfcblk_apply, bfcblk_apply, wnblk_apply]
  rfl

/-- The loss column after the kernel: row b holds sample b's chunked loss. -/
theorem nll_final (c : Dev nD) : (dat1 (V3 m ρ) c).arrAt 5 cfg1.N = nllArr m lab c :=
  (dat1 (V3 m ρ) c).arrAt_eq_of_cover 5 (nllArr m lab c) (fun t _ => flushed_eq m ρ lab hlab c t) cover

/-- The result buffer at the last boundary: the column's sum from 0, divided by 4096. -/
theorem W5_result (c : Dev nD) :
    W5 m ρ c (Proc.devRef .tc main_v5) = (fun _ => Aam.meanNll (fun b => Aam.rowNllK (U m c b) (Wn m c) (lab c b))) := by
  have hcol : W4 m ρ c (Proc.devRef .tc main_v3) = nllArr m lab c := (hF1 m ρ c 5).symm.trans (nll_final m ρ lab hlab c)
  show StableHlo.after hostOps2 (W4 m ρ c) (Proc.devRef .tc main_v5) = _
  after_results
  rw [hcol]
  funext j
  show Ideal.div (Ideal.hostReduceAdd reducesTo_S4096x1_S_d0_1 (nllArr m lab c) (Ideal.ofBits .f32 0x00000000#32) j) (Ideal.ofBits .f32 0x45800000#32) = _
  rw [Ideal.hostReduceAdd_total reducesTo_S4096x1_S_d0_1 (fun b => b.elim0), Ideal.ofBits_zero_f32, zero_add, sum_idx2]
  unfold Aam.meanNll Aam.count nllArr
  congr 1
  refine Finset.sum_congr rfl fun b _ => ?_
  rw [Fin.sum_univ_one]

end Column

/-- The kernel program's run: the result is the mean chunked loss; the arguments end as launched. -/
theorem run_value (lab : Dev nD → Fin 4096 → Fin 5994)
    (hlab : ∀ (c : Dev nD) (b : Fin 4096), m ((c : Thread nD τ).loc main_arg1) (ix1 b) = BitVec.ofNat 32 (lab c b).val) :
    θ_run defs (onTc (τ := τ) (main (F := Ideal))) ⟨m, fun _ => 0, ρ⟩ (fun r => ∀ c : Dev nD,
      r.2.mem ((c.tc : Thread nD τ).loc main_v5) = (fun _ => Aam.meanNll (fun b => Aam.rowNllK (U m c b) (Wn m c) (lab c b)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (W5_result m ρ lab hlab c), (h c).2⟩)
    (LaunchP.run_result (F := Ideal) m ρ)

end Cert.KernelIdeal.RunValue

end
-- ==== Proof.RefLogit.lean ====
/-
  The reference program's logits, read through its operations down to the inputs: entry (b, c) of the scaled array is
  `Aam.logitR` of sample b's normalized embedding, the prototype table and the sample's label — the embedding by the
  matrix product with the transposed layer weights plus the bias, both rows divided by their floored norms, the cosine by the
  second matrix product, the margin value on every entry, the one-hot blend, the scale.
-/
import proofs.«400184_j68195490726508_2_alg».proof.Proof.RefRead
import proofs.«400184_j68195490726508_2_alg».proof.Proof.Spec
import Idealize.ShloMosaic.Lib.ValueIdx
import Idealize.ShloMosaic.Lib.Pipeline.Value
import Idealize.ShloMosaic.PureOps.Ideal.Laws

noncomputable section

namespace Cert.ReferenceIdeal.LogitValue

open Cert.ReferenceIdeal Cert.ReferenceIdeal.Gen Idealize.ShloMosaic Idealize.ShloMosaic.ValueIdx

/-- The linear layer at (b, p): the product with the transposed weights plus the bias is the sample's embedding. -/
theorem emb_apply (x0 : (⟨S4096x1024, .f32⟩ : BufTy).Contents (Elt Ideal))
    (x2 : (⟨S256x1024, .f32⟩ : BufTy).Contents (Elt Ideal)) (x3 : (⟨S256, .f32⟩ : BufTy).Contents (Elt Ideal))
    (b : Fin 4096) (p : Fin 256) :
    ReadP.val_main_v4 (F := Ideal) x0 x2 x3 (ix2 b p)
      = Aam.emb (fun k => x0 (ix2 b k)) (fun q k => x2 (ix2 q k)) (fun q => x3 (ix1 q)) p := by
  have e1 : ∀ k : Fin 1024, ReadP.lidx_main_v1 (ix2 b p) k = ix2 b k := fun k =>
    funext fun a => Fin.ext (by match a with | ⟨0, _⟩ => rfl | ⟨1, _⟩ => rfl)
  have e2 : ∀ k : Fin 1024, ReadP.idx_main_v0 (ReadP.ridx_main_v1 (ix2 b p) k) = ix2 p k := fun k =>
    funext fun a => Fin.ext (by match a with | ⟨0, _⟩ => rfl | ⟨1, _⟩ => rfl)
  have e3 : ReadP.idx_main_v2 (ReadP.idx_main_v3 (ix2 b p)) = ix1 p :=
    funext fun a => Fin.ext (by match a with | ⟨0, _⟩ => rfl)
  rw [ReadP.val_main_v4_apply, ReadP.val_main_v1_apply, ReadP.val_main_v3_apply, ReadP.val_main_v2_apply]
  simp only [ReadP.val_main_v0_apply, e1, e2, e3, Ideal.addf_def]
  rfl

/-- The embedding divided by its floored norm, at (b, p). -/
theorem unit_emb_apply (x0 : (⟨S4096x1024, .f32⟩ : BufTy).Contents (Elt Ideal))
    (x2 : (⟨S256x1024, .f32⟩ : BufTy).Contents (Elt Ideal)) (x3 : (⟨S256, .f32⟩ : BufTy).Contents (Elt Ideal))
    (b : Fin 4096) (p : Fin 256) :
    ReadP.val_main_v12 (F := Ideal) x0 x2 x3 (ix2 b p)
      = Aam.unit (Aam.emb (fun k => x0 (ix2 b k)) (fun q k => x2 (ix2 q k)) (fun q => x3 (ix1 q))) p := by
  have e1 : ∀ k : Fin 256, ReadP.idx_main_v6 (ReadP.idx_main_v7 (ReadP.idx_main_v11 (ix2 b p))) k = ix2 b k := fun k =>
    funext fun a => Fin.ext (by match a with | ⟨0, _⟩ => rfl | ⟨1, _⟩ => rfl)
  rw [ReadP.val_main_v12_apply, ReadP.val_main_v11_apply, ReadP.val_main_v10_apply, ReadP.val_main_v8_apply,
    ReadP.val_main_v7_apply, ReadP.val_main_v6_apply, ReadP.val_main_v9_apply, ReadP.val_main_cst_0_apply,
    ReadP.val_main_cst_apply]
  simp only [ReadP.val_main_v5_apply, e1, emb_apply, Ideal.hostDivf_def, Ideal.maximumf_def, Ideal.hostUnary_sqrt_def,
    Ideal.mulf_def, Ideal.ofBits_def, Ideal.ofBits_zero_f32, zero_add]
  rfl

/-- Row c of the prototype table divided by its floored norm, at (c, q). -/
theorem unit_proto_apply (x4 : (⟨S5994x256, .f32⟩ : BufTy).Contents (Elt Ideal)) (c : Fin 5994) (q : Fin 256) :
    ReadP.val_main_v20 (F := Ideal) x4 (ix2 c q) = Aam.unit (fun q' => x4 (ix2 c q')) q := by
  have e1 : ∀ k : Fin 256, ReadP.idx_main_v14 (ReadP.idx_main_v15 (ReadP.idx_main_v19 (ix2 c q))) k = ix2 c k := fun k =>
    funext fun a => Fin.ext (by match a with | ⟨0, _⟩ => rfl | ⟨1, _⟩ => rfl)
  rw [ReadP.val_main_v20_apply, ReadP.val_main_v19_apply, ReadP.val_main_v18_apply, ReadP.val_main_v16_apply,
    ReadP.val_main_v15_apply, ReadP.val_main_v14_apply, ReadP.val_main_v17_apply, ReadP.val_main_cst_2_apply,
    ReadP.val_main_cst_1_apply]
  simp only [ReadP.val_main_v13_apply, e1, Ideal.hostDivf_def, Ideal.maximumf_def, Ideal.hostUnary_sqrt_def,
    Ideal.mulf_def, Ideal.ofBits_def, Ideal.ofBits_zero_f32, zero_add]
  rfl

/-- The second matrix product at (b, c): the inner product of the two normalized rows. -/
theorem cos_apply (x0 : (⟨S4096x1024, .f32⟩ : BufTy).Contents (Elt Ideal))
    (x2 : (⟨S256x1024, .f32⟩ : BufTy).Contents (Elt Ideal)) (x3 : (⟨S256, .f32⟩ : BufTy).Contents (Elt Ideal))
    (x4 : (⟨S5994x256, .f32⟩ : BufTy).Contents (Elt Ideal)) (b : Fin 4096) (c : Fin 5994) :
    ReadP.val_main_v22 (F := Ideal) x0 x2 x3 x4 (ix2 b c)
      = Aam.cosR (Aam.unit (Aam.emb (fun k => x0 (ix2 b k)) (fun q k => x2 (ix2 q k)) (fun q => x3 (ix1 q))))
          (fun c' q => x4 (ix2 c' q)) c := by
  have e1 : ∀ k : Fin 256, ReadP.lidx_main_v22 (ix2 b c) k = ix2 b k := fun k =>
    funext fun a => Fin.ext (by match a with | ⟨0, _⟩ => rfl | ⟨1, _⟩ => rfl)
  have e2 : ∀ k : Fin 256, ReadP.idx_main_v21 (ReadP.ridx_main_v22 (ix2 b c) k) = ix2 c k := fun k =>
    funext fun a => Fin.ext (by match a with | ⟨0, _⟩ => rfl | ⟨1, _⟩ => rfl)
  rw [ReadP.val_main_v22_apply]
  simp only [ReadP.val_main_v21_apply, e1, e2, unit_emb_apply, unit_proto_apply]
  rfl

/-- The word of 1.0 denotes 1. -/
theorem one_eq : Aam.one = 1 := by
  unfold Aam.one
  simp [Ideal.ofBits, Ideal.ieee, -EReal.coe_mul]; norm_num

/-- The word of +0.0 denotes 0. -/
theorem zero_eq : Aam.zero = 0 := Ideal.ofBits_zero_f32

/-- The margin stage on every entry: the select between the two branches is the margin of the entry's cosine. -/
theorem margin_apply (x0 : (⟨S4096x1024, .f32⟩ : BufTy).Contents (Elt Ideal))
    (x2 : (⟨S256x1024, .f32⟩ : BufTy).Contents (Elt Ideal)) (x3 : (⟨S256, .f32⟩ : BufTy).Contents (Elt Ideal))
    (x4 : (⟨S5994x256, .f32⟩ : BufTy).Contents (Elt Ideal)) (i : S4096x5994.Idx) :
    ReadP.val_main_v39 (F := Ideal) x0 x2 x3 x4 i = Aam.margin (ReadP.val_main_v22 (F := Ideal) x0 x2 x3 x4 i) := by
  rw [ReadP.val_main_v39_apply, ReadP.val_main_v36_apply, ReadP.val_main_v34_apply, ReadP.val_main_v33_apply,
    ReadP.val_main_cst_8_apply, ReadP.val_main_v35_apply, ReadP.val_main_cst_9_apply,
    ReadP.val_main_v32_apply, ReadP.val_main_v29_apply, ReadP.val_main_v28_apply, ReadP.val_main_cst_6_apply,
    ReadP.val_main_v31_apply, ReadP.val_main_v30_apply, ReadP.val_main_cst_7_apply, ReadP.val_main_v27_apply,
    ReadP.val_main_v26_apply, ReadP.val_main_call0_v4_apply, ReadP.val_main_call0_v3_apply, ReadP.val_main_cst_5_apply,
    ReadP.val_main_call0_v2_apply, ReadP.val_main_call0_v1_apply, ReadP.val_main_call0_v0_apply, ReadP.val_main_cst_4_apply,
    ReadP.val_main_v25_apply, ReadP.val_main_v24_apply, ReadP.val_main_cst_3_apply, ReadP.val_main_v23_apply,
    ReadP.val_main_v38_apply, ReadP.val_main_v37_apply, ReadP.val_main_cst_10_apply]
  generalize ReadP.val_main_v22 (F := Ideal) x0 x2 x3 x4 i = t
  simp only [Ideal.cmpf_def, Ideal.subf_def, Ideal.mulf_def, Ideal.maximumf_def, Ideal.minimumf_def,
    Ideal.hostUnary_sqrt_def, Ideal.ofBits_def]
  unfold Aam.margin
  by_cases h : Aam.zero < t - Aam.thr
  · rw [if_pos h]
    have hc : Ideal.cmp .ogt (t - Ideal.ofBits .f32 0xBF7AE5A5#32) (Ideal.ofBits .f32 0x00000000#32) = 1#1 := by
      simp only [Ideal.cmp]
      rw [decide_eq_true (show Ideal.ofBits .f32 0x00000000#32 < t - Ideal.ofBits .f32 0xBF7AE5A5#32 from h)]
      rfl
    rw [hc, select_one]
    rfl
  · rw [if_neg h]
    have hc : Ideal.cmp .ogt (t - Ideal.ofBits .f32 0xBF7AE5A5#32) (Ideal.ofBits .f32 0x00000000#32) = 0#1 := by
      simp only [Ideal.cmp]
      rw [decide_eq_false (show ¬ Ideal.ofBits .f32 0x00000000#32 < t - Ideal.ofBits .f32 0xBF7AE5A5#32 from h)]
      rfl
    rw [hc, select_zero]
    rfl

/-- The one-hot stage: entry (b, c) is 1 at the sample's label and 0 elsewhere. -/
theorem hot_apply (x1 : (⟨S4096, .i32⟩ : BufTy).Contents (Elt Ideal)) (lab : Fin 4096 → Fin 5994)
    (hlab : ∀ b, x1 (ix1 b) = BitVec.ofNat 32 (lab b).val) (b : Fin 4096) (c : Fin 5994) :
    ReadP.val_main_v40 (F := Ideal) x1 (ix2 b c) = Aam.hot (lab b) c := by
  have e1 : ReadP.idx_main_call2_v0 (ReadP.idx_main_call2_v2 (ix2 b c)) = ix1 b :=
    funext fun a => Fin.ext (by match a with | ⟨0, _⟩ => rfl)
  rw [ReadP.val_main_v40_apply, ReadP.val_main_call2_v4_apply, ReadP.val_main_call2_v2_apply,
    ReadP.val_main_call2_v0_apply, ReadP.val_main_call2_v3_apply, ReadP.val_main_call2_v1_apply, e1, hlab]
  show (((IntOp.cmpi .eq (BitVec.ofNat 32 (lab b).val) (BitVec.ofNat 32 c.val)).toNat : ℝ) : EReal) = _
  unfold Aam.hot
  by_cases h : c.val = (lab b).val
  · rw [if_pos h, h, one_eq]
    simp [IntOp.cmpi]
  · rw [if_neg h, zero_eq]
    have hne : ¬ (BitVec.ofNat 32 (lab b).val = BitVec.ofNat 32 c.val) := by
      intro he
      have := congrArg BitVec.toNat he
      simp only [BitVec.toNat_ofNat] at this
      have h1 := (lab b).isLt
      have h2 := c.isLt
      omega
    simp [IntOp.cmpi, hne]

/-- Entry (b, c) of the reference's scaled logits, for labels that are class numbers below 5994. -/
theorem logits_apply (x0 : (⟨S4096x1024, .f32⟩ : BufTy).Contents (Elt Ideal)) (x1 : (⟨S4096, .i32⟩ : BufTy).Contents (Elt Ideal))
    (x2 : (⟨S256x1024, .f32⟩ : BufTy).Contents (Elt Ideal)) (x3 : (⟨S256, .f32⟩ : BufTy).Contents (Elt Ideal))
    (x4 : (⟨S5994x256, .f32⟩ : BufTy).Contents (Elt Ideal))
    (lab : Fin 4096 → Fin 5994) (hlab : ∀ b, x1 (ix1 b) = BitVec.ofNat 32 (lab b).val) (b : Fin 4096) (c : Fin 5994) :
    Cert.ReferenceIdeal.ReadP.val_main_v47 (F := Ideal) x0 x1 x2 x3 x4 (ix2 b c)
      = Aam.logitR (Aam.unit (Aam.emb (fun k => x0 (ix2 b k)) (fun q k => x2 (ix2 q k)) (fun q => x3 (ix1 q))))
          (fun c' q => x4 (ix2 c' q)) (lab b) c := by
  rw [ReadP.val_main_v47_apply, ReadP.val_main_v46_apply, ReadP.val_main_cst_12_apply, ReadP.val_main_v45_apply,
    ReadP.val_main_v41_apply, ReadP.val_main_v44_apply, ReadP.val_main_v43_apply, ReadP.val_main_v42_apply,
    ReadP.val_main_cst_11_apply, margin_apply, hot_apply x1 lab hlab, cos_apply]
  simp only [Ideal.mulf_def, Ideal.addf_def, Ideal.subf_def, Ideal.ofBits_def]
  rfl

end Cert.ReferenceIdeal.LogitValue

end
-- ==== Proof.RefRow.lean ====
/-
  The reference program's result, read through its operations: the batch mean of the whole-row losses `Aam.rowNllR`,
  each at a shift μ_b — the row's maximal logit as the program computes it, of which only this is used: it is a real
  number when the row's logits are.
-/
import proofs.«400184_j68195490726508_2_alg».proof.Proof.RefRead
import proofs.«400184_j68195490726508_2_alg».proof.Proof.RefLogit
import proofs.«400184_j68195490726508_2_alg».proof.Proof.Spec
import Idealize.ShloMosaic.Lib.ValueIdx
import Idealize.ShloMosaic.Lib.ValueIdxRank1
import Idealize.ShloMosaic.Lib.Pipeline.Value
import Idealize.ShloMosaic.PureOps.Ideal.Laws

noncomputable section

namespace Cert.ReferenceIdeal.RowValue

open Cert.ReferenceIdeal Cert.ReferenceIdeal.Gen Idealize.ShloMosaic Idealize.ShloMosaic.ValueIdx

/-- The shift of row b: the row maximum as the program forms it. -/
def mu (x0 : (⟨S4096x1024, .f32⟩ : BufTy).Contents (Elt Ideal)) (x1 : (⟨S4096, .i32⟩ : BufTy).Contents (Elt Ideal))
    (x2 : (⟨S256x1024, .f32⟩ : BufTy).Contents (Elt Ideal)) (x3 : (⟨S256, .f32⟩ : BufTy).Contents (Elt Ideal))
    (x4 : (⟨S5994x256, .f32⟩ : BufTy).Contents (Elt Ideal)) (b : Fin 4096) : EReal :=
  ReadP.val_main_call3_v2 (F := Ideal) x0 x1 x2 x3 x4 (ix1 b)

/-- Entry (b, c) of the log-softmax: the logit shifted by the row's shift, minus the logarithm of the row's sum of the
    exponentials of the shifted logits. -/
theorem v48_apply (x0 : (⟨S4096x1024, .f32⟩ : BufTy).Contents (Elt Ideal)) (x1 : (⟨S4096, .i32⟩ : BufTy).Contents (Elt Ideal))
    (x2 : (⟨S256x1024, .f32⟩ : BufTy).Contents (Elt Ideal)) (x3 : (⟨S256, .f32⟩ : BufTy).Contents (Elt Ideal))
    (x4 : (⟨S5994x256, .f32⟩ : BufTy).Contents (Elt Ideal)) (b : Fin 4096) (c : Fin 5994) :
    ReadP.val_main_v48 (F := Ideal) x0 x1 x2 x3 x4 (ix2 b c)
      = (ReadP.val_main_v47 (F := Ideal) x0 x1 x2 x3 x4 (ix2 b c) - mu x0 x1 x2 x3 x4 b)
        - Ideal.log (∑ k : Fin 5994, Ideal.exp (ReadP.val_main_v47 (F := Ideal) x0 x1 x2 x3 x4 (ix2 b k) - mu x0 x1 x2 x3 x4 b)) := by
  have e3 : ∀ k : Fin 5994, ReadP.idx_main_call3_v3 (ReadP.idx_main_call3_v4 (ix2 b k)) = ix1 b :=
    fun k => funext fun a => Fin.ext (by match a with | ⟨0, _⟩ => rfl)
  have e8 : ReadP.idx_main_call3_v8 (ReadP.idx_main_call3_v10 (ix2 b c)) = ix1 b :=
    funext fun a => Fin.ext (by match a with | ⟨0, _⟩ => rfl)
  have e7 : ∀ k : Fin 5994, ReadP.idx_main_call3_v7 (ix1 b) k = ix2 b k :=
    fun k => funext fun a => Fin.ext (by match a with | ⟨0, _⟩ => rfl | ⟨1, _⟩ => rfl)
  rw [ReadP.val_main_v48_apply, ReadP.val_main_call3_v10_apply, ReadP.val_main_call3_v9_apply,
    ReadP.val_main_call3_v8_apply, e8, ReadP.val_main_call3_v7_apply]
  simp only [ReadP.val_main_call3_v6_apply, ReadP.val_main_call3_v5_apply, ReadP.val_main_call3_v4_apply,
    ReadP.val_main_call3_v3_apply, e3, e7, ReadP.val_main_call3_cst_1_apply,
    Ideal.subf_def, Ideal.hostUnary_exp_def, Ideal.hostUnary_log_def, Ideal.ofBits_def, Ideal.ofBits_zero_f32, zero_add, mu]

/-- A class number below 5994, as a 32-bit word read signed, is itself. -/
theorem lab_toInt (ℓ : Fin 5994) : (BitVec.ofNat 32 ℓ.val).toInt = (ℓ.val : Int) := by
  have h := ℓ.isLt
  have hn : (BitVec.ofNat 32 ℓ.val).toNat = ℓ.val := by
    rw [BitVec.toNat_ofNat]; exact Nat.mod_eq_of_lt (by omega)
  rw [BitVec.toInt_eq_toNat_of_lt (by rw [hn]; omega), hn]

/-- The start index of row b: the label itself (it is not negative, so no wrap-around is added). -/
theorem v5_apply (x1 : (⟨S4096, .i32⟩ : BufTy).Contents (Elt Ideal))
    (lab : Fin 4096 → Fin 5994) (hlab : ∀ b, x1 (ix1 b) = BitVec.ofNat 32 (lab b).val) (b : Fin 4096) :
    ReadP.val_main_call4_v5 (F := Ideal) x1 (ix3 b (0 : Fin 1) (0 : Fin 1)) = BitVec.ofNat 32 (lab b).val := by
  have e5 : ReadP.idx_main_call4_v5 (ix3 b (0 : Fin 1) (0 : Fin 1)) = ix2 b (0 : Fin 1) :=
    funext fun a => Fin.ext (by
      match a with
      | ⟨0, _⟩ => (show ((b.val * 1 + 0) * 1 + 0) / 1 = b.val; omega)
      | ⟨1, _⟩ => rfl)
  have e49 : ReadP.idx_main_v49 (ix2 b (0 : Fin 1)) = ix1 b :=
    funext fun a => Fin.ext (by match a with | ⟨0, _⟩ => rfl)
  have hneg : IntOp.cmpi .slt (BitVec.ofNat 32 (lab b).val) 0#32 = 0#1 := by
    refine eq_zero_of_ne_one fun h => ?_
    rw [IntOp.cmpi_slt, lab_toInt, BitVec.toInt_zero] at h
    omega
  rw [ReadP.val_main_call4_v5_apply, e5, ReadP.val_main_call4_v4_apply, ReadP.val_main_call4_v1_apply,
    ReadP.val_main_v49_apply, e49, hlab, ReadP.val_main_call4_v0_apply, ReadP.val_main_call4_c_apply, hneg, select_zero]

/-- The in-range test of row b's start index holds. -/
theorem v11_apply (x1 : (⟨S4096, .i32⟩ : BufTy).Contents (Elt Ideal))
    (lab : Fin 4096 → Fin 5994) (hlab : ∀ b, x1 (ix1 b) = BitVec.ofNat 32 (lab b).val) (b : Fin 4096) :
    ReadP.val_main_call4_v11 (F := Ideal) x1 (ix3 b (0 : Fin 1) (0 : Fin 1)) = 1#1 := by
  have h7 : IntOp.cmpi .sge (BitVec.ofNat 32 (lab b).val) 0#32 = 1#1 := by
    rw [IntOp.cmpi_sge, lab_toInt, BitVec.toInt_zero]; omega
  have h10 : IntOp.cmpi .sle (BitVec.ofNat 32 (lab b).val) 5993#32 = 1#1 := by
    have h := (lab b).isLt
    have h' : (5993#32 : BitVec 32).toInt = 5993 := by decide
    rw [IntOp.cmpi_sle, lab_toInt, h']; omega
  rw [ReadP.val_main_call4_v11_apply, ReadP.val_main_call4_v7_apply, ReadP.val_main_call4_v10_apply,
    v5_apply x1 lab hlab b, ReadP.val_main_call4_v6_apply, ReadP.val_main_call4_c_2_apply,
    ReadP.val_main_call4_v9_apply, ReadP.val_main_call4_v8_apply, ReadP.val_main_call4_c_1_apply, h7, h10]
  rfl

/-- … at every index of the [4096, 1, 1] array. -/
theorem v11_all (x1 : (⟨S4096, .i32⟩ : BufTy).Contents (Elt Ideal))
    (lab : Fin 4096 → Fin 5994) (hlab : ∀ b, x1 (ix1 b) = BitVec.ofNat 32 (lab b).val) (i : S4096x1x1.Idx) :
    ReadP.val_main_call4_v11 (F := Ideal) x1 i = 1#1 := by
  have h1 : i 1 = (0 : Fin 1) := Fin.ext (by have h : (i 1).val < 1 := (i 1).isLt; show (i 1).val = 0; omega)
  have h2 : i 2 = (0 : Fin 1) := Fin.ext (by have h : (i 2).val < 1 := (i 2).isLt; show (i 2).val = 0; omega)
  have e : i = ix3 (i 0) (0 : Fin 1) (0 : Fin 1) := by
    funext a
    match a with
    | ⟨0, _⟩ => rfl
    | ⟨1, _⟩ => exact h1
    | ⟨2, _⟩ => exact h2
  rw [e]; exact v11_apply x1 lab hlab (i 0)

/-- A conjunction of ones is one. -/
theorem fold_andi_one {ι : Type} [DecidableEq ι] (s : Finset ι) (g : ι → BitVec 1) (hg : ∀ k, g k = 1#1) :
    s.fold IntOp.andi 1#1 g = 1#1 := by
  induction s using Finset.induction_on with
  | empty => rfl
  | insert a s ha ih => rw [Finset.fold_insert ha, ih, hg]; rfl

/-- The conjunction over the trailing unit axis holds in every row. -/
theorem v12_apply (x1 : (⟨S4096, .i32⟩ : BufTy).Contents (Elt Ideal))
    (lab : Fin 4096 → Fin 5994) (hlab : ∀ b, x1 (ix1 b) = BitVec.ofNat 32 (lab b).val) (b : Fin 4096) :
    ReadP.val_main_call4_v12 (F := Ideal) x1 (ix2 b (0 : Fin 1)) = 1#1 := by
  unfold ReadP.val_main_call4_v12
  rw [Host.reduce_eq_fold_single IntOp.andi _ _ reducesTo_S4096x1x1_S4096x1_d2 (by decide) h_S_]
  exact fold_andi_one _ _ (fun k => v11_all x1 lab hlab _)

/-- The gather at row b: the operand at (b, start index of row b read signed and clamped into the class range). -/
theorem gather_apply {α : Type} (x : S4096x5994.Idx → α) (idx : IVec S4096x1x1 32) (b : Fin 4096) :
    Host.gather gather_S4096x5994_S4096x1x1_S4096x1_n_1_0_0_1_2_11 x idx (ix2 b (0 : Fin 1))
      = x (ix2 b ⟨min (idx (ix3 b (0 : Fin 1) (0 : Fin 1))).toInt.toNat 5993, by omega⟩) := by
  unfold Host.gather
  congr 1
  funext a
  refine Fin.ext ?_
  match a with
  | ⟨0, _⟩ =>
    show GatherDims.start _ _ idx 0 + GatherDims.batchCoord _ _ 0 + GatherDims.offCoord _ _ 0 = b.val
    rw [GatherDims.start_batching _ _ _ _ (by decide), GatherDims.offCoord_eq_zero _ _ _ (by decide),
      Nat.zero_add, Nat.add_zero]
    unfold GatherDims.batchCoord
    rw [dif_pos (by decide)]
    rfl
  | ⟨1, _⟩ =>
    show GatherDims.start _ _ idx 1 + GatherDims.batchCoord _ _ 1 + GatherDims.offCoord _ _ 1 = min _ 5993
    rw [GatherDims.batchCoord_eq_zero _ _ _ (by decide), GatherDims.offCoord_eq_zero _ _ _ (by decide),
      Nat.add_zero]
    unfold GatherDims.start
    rw [dif_pos (by decide)]
    have hsi : gather_S4096x5994_S4096x1x1_S4096x1_n_1_0_0_1_2_11.siIdx (ix2 b (0 : Fin 1))
        ⟨List.idxOf (1 : Fin 2) gather_S4096x5994_S4096x1x1_S4096x1_n_1_0_0_1_2_11.startIndexMap,
          List.idxOf_lt_length_iff.2 (by decide)⟩ = ix3 b (0 : Fin 1) (0 : Fin 1) := by
      funext c; refine Fin.ext ?_
      match c with
      | ⟨0, _⟩ => rfl
      | ⟨1, _⟩ => rfl
      | ⟨2, _⟩ => rfl
    rw [hsi]
    rfl

/-- A maximum over a non-empty finite family of real numbers, started at −∞, is a real number. -/
theorem fold_max_real {n : Nat} (hn : 0 < n) (f : Fin n → EReal) (hf : ∀ k, Aam.IsReal (f k)) :
    Aam.IsReal ((Finset.univ : Finset (Fin n)).fold max ⊥ f) := by
  have hlt : (Finset.univ : Finset (Fin n)).fold max ⊥ f < ⊤ := by
    rw [Finset.fold_max_lt]
    exact ⟨bot_lt_top, fun k _ => by obtain ⟨r, hr⟩ := hf k; rw [hr]; exact EReal.coe_lt_top r⟩
  have hgt : ⊥ < (Finset.univ : Finset (Fin n)).fold max ⊥ f := by
    rw [Finset.lt_fold_max]
    exact Or.inr ⟨⟨0, hn⟩, Finset.mem_univ _, by obtain ⟨r, hr⟩ := hf ⟨0, hn⟩; rw [hr]; exact EReal.bot_lt_coe r⟩
  exact ⟨_, (EReal.coe_toReal hlt.ne hgt.ne').symm⟩

/-- The word of −∞. -/
theorem ofBits_neg_inf : Ideal.ofBits .f32 0xFF800000#32 = (⊥ : EReal) := by
  simp [Ideal.ofBits, Ideal.ieee]

/-- Row b with column k put back on the reduced axis is (b, k). -/
theorem lift_row (h : S4096x5994.Reduces [1] S4096) (b : Fin 4096) (k : Fin (S4096x5994.size 1)) :
    h.lift (ix1 b) k = ix2 b (⟨k.val, k.isLt⟩ : Fin 5994) := by
  funext c; apply Fin.ext
  fin_cases c <;> rfl

/-- The gather at row b when the row's start index is the word of a class number ℓ: the operand at (b, ℓ). -/
theorem gather_at {α : Type} (x : S4096x5994.Idx → α) (idx : IVec S4096x1x1 32) (b : Fin 4096) (ℓ : Fin 5994)
    (h : idx (ix3 b (0 : Fin 1) (0 : Fin 1)) = BitVec.ofNat 32 ℓ.val) :
    Host.gather gather_S4096x5994_S4096x1x1_S4096x1_n_1_0_0_1_2_11 x idx (ix2 b (0 : Fin 1)) = x (ix2 b ℓ) := by
  refine (gather_apply x idx b).trans (congrArg (fun c => x (ix2 b c)) (Fin.ext ?_))
  show min (idx (ix3 b (0 : Fin 1) (0 : Fin 1))).toInt.toNat 5993 = ℓ.val
  have hl := ℓ.isLt
  rw [h, lab_toInt, Int.toNat_natCast]
  omega

/-- The program's row maximum, from −∞ and joined with −∞ once more, is a real number when the row's entries are. -/
theorem fold_maximumf_real {n : Nat} (hn : 0 < n) (g : Fin n → Ideal .f32) (hg : ∀ k, Aam.IsReal (g k)) :
    Aam.IsReal (FloatOps.maximumf (F := Ideal) (Ideal.ofBits .f32 0xFF800000#32)
      ((Finset.univ : Finset (Fin n)).fold (FloatOps.maximumf (F := Ideal)) (Ideal.ofBits .f32 0xFF800000#32) g)) := by
  rw [ofBits_neg_inf]
  show Aam.IsReal (max (⊥ : EReal) ((Finset.univ : Finset (Fin n)).fold max (⊥ : EReal) g))
  rw [max_eq_right bot_le]
  exact fold_max_real hn g hg

/-- Real logits in row b give a real shift. -/
theorem mu_real (x0 : (⟨S4096x1024, .f32⟩ : BufTy).Contents (Elt Ideal)) (x1 : (⟨S4096, .i32⟩ : BufTy).Contents (Elt Ideal))
    (x2 : (⟨S256x1024, .f32⟩ : BufTy).Contents (Elt Ideal)) (x3 : (⟨S256, .f32⟩ : BufTy).Contents (Elt Ideal))
    (x4 : (⟨S5994x256, .f32⟩ : BufTy).Contents (Elt Ideal)) (b : Fin 4096)
    (hr : ∀ c, Aam.IsReal (ReadP.val_main_v47 (F := Ideal) x0 x1 x2 x3 x4 (ix2 b c))) :
    Aam.IsReal (mu x0 x1 x2 x3 x4 b) := by
  unfold mu
  rw [ReadP.val_main_call3_v2_apply, ReadP.val_main_call3_v1_apply, ReadP.val_main_call3_cst_0_apply]
  unfold ReadP.val_main_call3_v0
  rw [Host.reduce_eq_fold_single FloatOps.maximumf _ _ reducesTo_S4096x5994_S4096_d1 (by decide) h_S_]
  exact fold_maximumf_real (by decide) _ (fun k => by rw [Function.comp_apply, lift_row]; exact hr _)

/-- Row b's term of the batch sum: the whole-row loss of sample b at the shift of row b. -/
theorem row_apply (x0 : (⟨S4096x1024, .f32⟩ : BufTy).Contents (Elt Ideal)) (x1 : (⟨S4096, .i32⟩ : BufTy).Contents (Elt Ideal))
    (x2 : (⟨S256x1024, .f32⟩ : BufTy).Contents (Elt Ideal)) (x3 : (⟨S256, .f32⟩ : BufTy).Contents (Elt Ideal))
    (x4 : (⟨S5994x256, .f32⟩ : BufTy).Contents (Elt Ideal))
    (lab : Fin 4096 → Fin 5994) (hlab : ∀ b, x1 (ix1 b) = BitVec.ofNat 32 (lab b).val) (b : Fin 4096) :
    ReadP.val_main_v52 (F := Ideal) x0 x1 x2 x3 x4 (ix1 b)
      = Aam.rowNllR (Aam.unit (Aam.emb (fun k => x0 (ix2 b k)) (fun q k => x2 (ix2 q k)) (fun q => x3 (ix1 q))))
          (fun c' q => x4 (ix2 c' q)) (lab b) (mu x0 x1 x2 x3 x4 b) := by
  have e51 : ReadP.idx_main_v51 (ix1 b) = ix2 b (0 : Fin 1) :=
    funext fun a => Fin.ext (by
      match a with
      | ⟨0, _⟩ => (show b.val / 1 = b.val; omega)
      | ⟨1, _⟩ => rfl)
  rw [ReadP.val_main_v52_apply, ReadP.val_main_v51_apply, e51, ReadP.val_main_v50_apply, v12_apply x1 lab hlab b,
    select_one]
  unfold ReadP.val_main_call4_v13
  rw [gather_at _ _ b (lab b) (v5_apply x1 lab hlab b), v48_apply]
  simp only [LogitValue.logits_apply x0 x1 x2 x3 x4 lab hlab, Ideal.hostNegf_def, Ideal.negf_def]
  rfl

/-- The reference's scalar result for labels that are class numbers below 5994. -/
theorem ref_value (x0 : (⟨S4096x1024, .f32⟩ : BufTy).Contents (Elt Ideal)) (x1 : (⟨S4096, .i32⟩ : BufTy).Contents (Elt Ideal))
    (x2 : (⟨S256x1024, .f32⟩ : BufTy).Contents (Elt Ideal)) (x3 : (⟨S256, .f32⟩ : BufTy).Contents (Elt Ideal))
    (x4 : (⟨S5994x256, .f32⟩ : BufTy).Contents (Elt Ideal))
    (lab : Fin 4096 → Fin 5994) (hlab : ∀ b, x1 (ix1 b) = BitVec.ofNat 32 (lab b).val) :
    ∃ μ : Fin 4096 → EReal,
      (∀ b, (∀ c, Aam.IsReal (Aam.logitR
          (Aam.unit (Aam.emb (fun k => x0 (ix2 b k)) (fun q k => x2 (ix2 q k)) (fun q => x3 (ix1 q))))
          (fun c' q => x4 (ix2 c' q)) (lab b) c)) → Aam.IsReal (μ b))
      ∧ Cert.ReferenceIdeal.ReadP.val_main_v54 (F := Ideal) x0 x1 x2 x3 x4 ix0
          = Aam.meanNll (fun b => Aam.rowNllR
              (Aam.unit (Aam.emb (fun k => x0 (ix2 b k)) (fun q k => x2 (ix2 q k)) (fun q => x3 (ix1 q))))
              (fun c' q => x4 (ix2 c' q)) (lab b) (μ b)) := by
  refine ⟨mu x0 x1 x2 x3 x4, fun b hr => mu_real x0 x1 x2 x3 x4 b (fun c => by
    rw [LogitValue.logits_apply x0 x1 x2 x3 x4 lab hlab]; exact hr c), ?_⟩
  rw [ReadP.val_main_v54_apply, ReadP.val_main_v53_apply, ReadP.val_main_cst_13_apply, ReadP.val_main_cst_14_apply]
  simp only [Ideal.hostDivf_def, Ideal.ofBits_def, Ideal.ofBits_zero_f32, zero_add]
  unfold Aam.meanNll Aam.count
  congr 1
  rw [← Equiv.sum_comp (idxEquiv1 (n := 4096)).symm]
  exact Finset.sum_congr rfl fun b _ => row_apply x0 x1 x2 x3 x4 lab hlab b

end Cert.ReferenceIdeal.RowValue

end
-- ==== Proof.lean ====
/-
  The certificate of an additive-angular-margin softmax loss: a kernel program of two pipelined regions against a host
  reference, equal over the extended reals.

  The kernel program pads the 5994 class prototypes to 6144 rows, normalizes every row in a first region (three blocks of 2048
  rows), and in a second region (eight blocks of 512 samples) computes each sample's loss with the class axis walked in three
  chunks of 2048 columns: the cosine tile by a matrix product, the margin value on the label's column only, the columns past
  5994 masked with a constant the certificate names −∞, the sum Σ e^{logit − 30} and the label's logit kept, and
  −(logit_ℓ − (30 + log Σ)) stored; the host then takes the mean. The reference forms all 4096 × 5994 logits with a one-hot
  blend, takes log-softmax with the row maximum as the shift, gathers the label's entry, negates and takes the mean.

  The two agree where the data are real numbers and every label is a class number: the masked columns contribute
  e^{−∞} = 0, a chunk's label cosine is the label's own cosine, the blend 1·φ + 0·t, 0·φ + 1·t is the selection, and
  Σ e^{a − 30} = e^{μ − 30} · Σ e^{a − μ} for any real shift μ, so 30 + log Σ e^{a − 30} = μ + log Σ e^{a − μ}. The precondition
  supplies both facts: every float input finite, every label in 0 … 5993 (outside that range the reference's own gather wraps a
  negative label or fills the result with a non-number, while its one-hot is all zeros).

  The frames of the two kernel programs are the generated frame certificates; the reference's frame is its run with the result
  dropped; the idealization's three ledger entries (the mask constant at its three sites) are the table's value for the name.
-/
import proofs.«400184_j68195490726508_2_alg».proof.Defs
import proofs.«400184_j68195490726508_2_alg».proof.Proof.Gen.Kernel
import proofs.«400184_j68195490726508_2_alg».proof.Proof.Gen.Kernel.Skeleton
import proofs.«400184_j68195490726508_2_alg».proof.Proof.Gen.Kernel.Launch
import proofs.«400184_j68195490726508_2_alg».proof.Proof.Gen.Kernel.Points
import proofs.«400184_j68195490726508_2_alg».proof.Proof.Gen.Kernel.Frame
import proofs.«400184_j68195490726508_2_alg».proof.Proof.Gen.KernelIdeal
import proofs.«400184_j68195490726508_2_alg».proof.Proof.Gen.KernelIdeal.Skeleton
import proofs.«400184_j68195490726508_2_alg».proof.Proof.Gen.KernelIdeal.Launch
import proofs.«400184_j68195490726508_2_alg».proof.Proof.Gen.KernelIdeal.Points
import proofs.«400184_j68195490726508_2_alg».proof.Proof.Gen.KernelIdeal.Frame
import proofs.«400184_j68195490726508_2_alg».proof.Proof.Gen.ReferenceIdeal
import proofs.«400184_j68195490726508_2_alg».proof.Proof.Gen.Pre_finite_inputs
import proofs.«400184_j68195490726508_2_alg».proof.Proof.Spec
import proofs.«400184_j68195490726508_2_alg».proof.Proof.MathReal
import proofs.«400184_j68195490726508_2_alg».proof.Proof.MathLse
import proofs.«400184_j68195490726508_2_alg».proof.Proof.PreDecode
import proofs.«400184_j68195490726508_2_alg».proof.Proof.KernelArr
import proofs.«400184_j68195490726508_2_alg».proof.Proof.RefRun
import proofs.«400184_j68195490726508_2_alg».proof.Proof.RefRead
import proofs.«400184_j68195490726508_2_alg».proof.Proof.RefRow
import Idealize.ShloMosaic.PureOps.IdealRules
import Idealize.ShloMosaic.Adequacy
import Idealize.ShloMosaic.Init

noncomputable section

namespace Cert.Proof

open Idealize.ShloMosaic Idealize.ShloMosaic.ValueIdx Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The mask constant is −∞ by the certificate's table, at each of its three sites. -/
theorem preserves : Cert.preserves_Kernel_KernelIdeal :=
  ⟨IdealRules.named_const.statement Cert.KernelIdeal.κ "neg_big" .f32 0xFF333332#32 ⊥ rfl,
   IdealRules.named_const.statement Cert.KernelIdeal.κ "neg_big" .f32 0xFF333332#32 ⊥ rfl,
   IdealRules.named_const.statement Cert.KernelIdeal.κ "neg_big" .f32 0xFF333332#32 ⊥ rfl⟩

/-- Both programs end at the batch mean of the samples' losses: the kernel's chunked arrangement and the reference's whole-row
    arrangement at its own shift are one number on real data with labels in range. -/
theorem algebraic : Cert.algebraic_KernelIdeal_ReferenceIdeal := by
  intro m ρ m' ρ' hpre hagree
  have hdec := fun c : Dev Cert.KernelIdeal.nD => Cert.PreDecode.of_pre _ _ _ _ _ (hpre c)
  choose lab hlab using fun c => (hdec c).2.2.2.2
  refine ⟨fun c => (fun _ => Cert.Aam.meanNll (fun b => Cert.Aam.rowNllK (Cert.KernelIdeal.RunValue.U m c b)
      (Cert.KernelIdeal.RunValue.Wn m c) (lab c b))), Cert.KernelIdeal.RunValue.run_value m ρ lab hlab, ?_⟩
  refine (θ_run Cert.ReferenceIdeal.defs _ _).mono (fun _ h c => ⟨(h c).1.trans ?_, (h c).2⟩)
    (Cert.ReferenceIdeal.ValueP.run (F := Ideal) m' ρ')
  obtain ⟨hx, hwfc, hbfc, hw, -⟩ := hdec c
  obtain ⟨a0, a1, a2, a3, a4⟩ := hagree c
  rw [Cert.ReferenceIdeal.ValueP.res_main_v54_eq_val, a0, a1, a2, a3, a4]
  obtain ⟨μ, hμ, hval⟩ := Cert.ReferenceIdeal.RowValue.ref_value
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (lab c) (hlab c)
  funext j
  rw [eq_ix0 j, hval]
  unfold Cert.Aam.meanNll
  congr 1
  refine Finset.sum_congr rfl fun b _ => ?_
  have hu : ∀ p, Cert.Aam.IsReal (Cert.KernelIdeal.RunValue.U m c b p) :=
    Cert.Aam.unit_real _ (Cert.Aam.emb_real _ _ _ (fun k => hx _) (fun p k => hwfc _) (fun p => hbfc _))
  have hcos := Cert.Aam.cosR_real (Cert.KernelIdeal.RunValue.U m c b)
    (fun c' q => m ((c.tc : Thread Cert.KernelIdeal.nD Cert.KernelIdeal.τ).loc Cert.KernelIdeal.main_arg4) (ix2 c' q)) hu (fun c' q => hw _)
  exact (Cert.Aam.rowNll_eq _ _ (lab c b) hcos (μ b) (hμ b (Cert.Aam.logitR_real _ _ _ hcos))).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
